-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S_ : Shape := ⟨0, ![]⟩
abbrev S1024x128 : Shape := ⟨2, ![1024, 128]⟩
abbrev S1024x384 : Shape := ⟨2, ![1024, 384]⟩
abbrev S16384x1024 : Shape := ⟨2, ![16384, 1024]⟩
abbrev S16384x64 : Shape := ⟨2, ![16384, 64]⟩
abbrev S2048x1024 : Shape := ⟨2, ![2048, 1024]⟩
abbrev S2048x64 : Shape := ⟨2, ![2048, 64]⟩
abbrev S2048x384 : Shape := ⟨2, ![2048, 384]⟩
abbrev S4x4096x64 : Shape := ⟨3, ![4, 4096, 64]⟩
abbrev S1x1024x64 : Shape := ⟨3, ![1, 1024, 64]⟩
abbrev S1x4096x64 : Shape := ⟨3, ![1, 4096, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 22
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x384, .f32⟩
  | .hbm, ⟨14, _⟩ => ⟨S16384x1024, .f32⟩
  | .hbm, ⟨15, _⟩ => ⟨S16384x64, .bf16⟩
  | .hbm, ⟨16, _⟩ => ⟨S16384x64, .bf16⟩
  | .hbm, ⟨17, _⟩ => ⟨S16384x64, .bf16⟩
  | .hbm, ⟨18, _⟩ => ⟨S4x4096x64, .bf16⟩
  | .hbm, ⟨19, _⟩ => ⟨S4x4096x64, .bf16⟩
  | .hbm, ⟨20, _⟩ => ⟨S4x4096x64, .bf16⟩
  | .hbm, ⟨21, _⟩ => ⟨S4x4096x64, .f32⟩
  | .local _ .vmem, ⟨0, _⟩ => ⟨S2048x1024, .f32⟩
  | .local _ .vmem, ⟨1, _⟩ => ⟨S2048x1024, .f32⟩
  | .local _ .vmem, ⟨2, _⟩ => ⟨S1024x384, .f32⟩
  | .local _ .vmem, ⟨3, _⟩ => ⟨S2048x64, .bf16⟩
  | .local _ .vmem, ⟨4, _⟩ => ⟨S2048x64, .bf16⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x4096x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x1024x64, .f32⟩
  | .local _ .vmem, ⟨16, _⟩ => ⟨S1x1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

@[reducible] def k1_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c1024_i32 : BitVec 32 := 1024#32
  let v12 : BitVec 32 := Scalar.muli arg6 c1024_i32
  v12
def k1_off1 (k1_t1 : Fin k1_t1_loop.trips) : Fin 3 → Nat :=
  let c0_8 : Index := 0#32
  let c0_i32 : BitVec 32 := 0#32
  let c1_i32 : BitVec 32 := 1#32
  let arg6 : BitVec 32 := Scf.iv c0_i32 c1_i32 k1_t1
  let c1024_i32 : BitVec 32 := 1024#32
  let v12 : BitVec 32 := Scalar.muli arg6 c1024_i32
  let v13 : BitVec 32 := v12
  let v14 : Index := Scalar.indexCast v13
  let c0_9 : Index := 0#32
  ![0, v14.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  pads_S1024x64_S1024x128_000_0640 : S1024x64.Pads (![0, 0] : Fin 2 → Nat) ![0, 64] ![0, 0] S1024x128
  h_S_ : 0 < S_.numel
  concatenates_S1024x128_S1024x128_S1024x128_S1024x384_d1 : Shape.Concatenates [S1024x128, S1024x128, S1024x128] S1024x384 1
  shapeCasts_S4x4096x1024_S16384x1024 : S4x4096x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  slices_S2048x384_o0_0_S2048x64 : S2048x384.Slices ![0, 0] S2048x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  slices_S2048x384_o0_128_S2048x64 : S2048x384.Slices ![0, 128] S2048x64
  slices_S2048x384_o0_256_S2048x64 : S2048x384.Slices ![0, 256] S2048x64
  shapeCasts_S16384x64_S4x4096x64 : S16384x64.ShapeCasts S4x4096x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  dot_S2048x1024_S1024x384_S2048x384_1_0_0_1_n_n_wf : DotDims.WF S2048x1024 S1024x384 S2048x384 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .bf16 = 32 ∨ (Rect.block (s := S16384x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .bf16 = 32 ∨ (Rect.block (s := S16384x64) S2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .bf16 = 32 ∨ (Rect.block (s := S16384x64) S2048x64.size (cc0_transform_4 i) (hinb0_4 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x1024x64.size a ≤ S1x4096x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .bf16 = 32 ∨ (Rect.block (s := S4x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v4) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_2) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K.Region0.lean ====
/-
  Region 0 of @main (the fused projection x2d · [Wq|0|Wk|0|Wv|0]) as a pipeline body, at any float instance.
  At a grid point the body reads the point's 2048 rows of x2d and the whole 1024×384 weight matrix, forms their
  product once, and stores three 64-column slices of it (columns 0.., 128.., 256..) into the three output blocks.
  Stated here: each window's block read off the region-entry contents, what each output block holds after the body
  (one whole-block store each), the body's triple, the pipeline's proof data and the body obligation at every point.
-/
import proofs.«414132_j2267742732849_3_alg».proof.Proof.Gen.Kernel.Launch
import proofs.«414132_j2267742732849_3_alg».proof.Proof.Gen.Kernel.Skeleton
import proofs.«414132_j2267742732849_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of x2d is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole x2d rows block, the whole weight matrix, a whole output block: the rectangles the body loads and stores through. -/
abbrev rx0 : Rect S2048x1024 := Rect.unit (s := S2048x1024) ![0, 0] S2048x1024.size inb_S2048x1024_S2048x1024_0_0
abbrev rw0 : Rect S1024x384 := Rect.unit (s := S1024x384) ![0, 0] S1024x384.size inb_S1024x384_S1024x384_0_0
abbrev ro0 : Rect S2048x64 := Rect.unit (s := S2048x64) ![0, 0] S2048x64.size inb_S2048x64_S2048x64_0_0

/-- The q block after the body: the product's columns 0..63, stored whole. -/
def out0_2 (x0 : Vec F S2048x1024 .f32) (x1 : Vec F S1024x384 .f32) : Vec F S2048x64 .bf16 :=
  View.canon [⟨ro0, k0_pay2 (View.ld x0 rx0) (View.ld x1 rw0)⟩]
/-- The k block after the body: the product's columns 128..191. -/
def out0_3 (x0 : Vec F S2048x1024 .f32) (x1 : Vec F S1024x384 .f32) : Vec F S2048x64 .bf16 :=
  View.canon [⟨ro0, k0_pay3 (View.ld x0 rx0) (View.ld x1 rw0)⟩]
/-- The v block after the body: the product's columns 256..319. -/
def out0_4 (x0 : Vec F S2048x1024 .f32) (x1 : Vec F S1024x384 .f32) : Vec F S2048x64 .bf16 :=
  View.canon [⟨ro0, k0_pay4 (View.ld x0 rx0) (View.ld x1 rw0)⟩]

/-- One whole-block store covers the block. -/
theorem cover0 (p0 : Vec F S2048x64 .bf16) (y : S2048x64.Idx) :
    ∃ pc ∈ ([⟨ro0, p0⟩] : List (View.Piece (Elt F) S2048x64 .bf16)), y ∈ pc.1.set :=
  View.cover_of_tiled [⟨ro0, p0⟩] S2048x64.size (by rfl) y

set_option maxHeartbeats 1000000 in
/-- The body on whole staging memrefs: the two inputs at read contents, the three outputs at anything, runs to the
    continuation with the inputs as they were and each output at its slice of the product. -/
theorem sound_kernel0 (c : Dev nD) (E : Set ℕ) (i : grid0.Coords)
    (arg1 : Memref sig .tc .vmem S2048x1024 .f32) (harg1 : arg1.IsWhole) (arg2 : Memref sig .tc .vmem S1024x384 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x64 .bf16) (harg5 : arg5.IsWhole)
    (x0 : Vec F S2048x1024 .f32) (x1 : Vec F S1024x384 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel3 i arg1 harg1 arg2 harg2 arg3 harg3 arg4 harg4 arg5 harg5) K := by
  simp only [cc0__proj_kernel3_eq_skeleton]; unfold cc0__proj_kernel3_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of pipeline 0 on core `c`: the arrays as the region finds them; after the body each input's
    buffer at its block and each output's at its slice of the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of @main (attention over one batch's keys and values, 1024 query rows per grid point) as a pipeline
  body, at any float instance. At a point the body reads its block of query rows, then passes four times over the
  batch's 4096 key and value rows, 1024 at a time, carrying per query row a running maximum, a running
  normaliser and a running weighted sum; it stores the weighted sum divided by the normaliser, whole.
  The passes are one counted loop, gone through by its invariant: the carried triple before pass `k` is the
  `k`-fold iterate of one pass's yield from the initial triple (−∞, 0, 0).
-/
import proofs.«414132_j2267742732849_3_alg».proof.Proof.Gen.Kernel.Launch
import proofs.«414132_j2267742732849_3_alg».proof.Proof.Gen.Kernel.Skeleton
import proofs.«414132_j2267742732849_3_alg».proof.Proof.Gen.Kernel.Loops
import proofs.«414132_j2267742732849_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- A batch's key rows, fetched at the batch's first point, are in their staging buffer at each of its points. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Likewise its value rows. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole query block and the whole output block: the rectangle the body loads and stores through. -/
abbrev rq1 : Rect S1x1024x64 := Rect.unit (s := S1x1024x64) ![0, 0, 0] S1x1024x64.size inb_S1x1024x64_S1x1024x64_0_0_0

/-- The carried triple after the four passes: the loop's invariant at its last trip, from the query block `x0`
    and the key and value blocks `x1`, `x2` as the staging memrefs hold them. -/
def carry1 (c : Dev nD) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (x0 : Vec F S1x1024x64 .bf16) (x1 : Vec F S1x4096x64 .bf16) (x2 : Vec F S1x4096x64 .bf16) :
    FVec F S1024x1 .f32 × FVec F S1024x1 .f32 × FVec F S1024x64 .f32 :=
  st_k1_t1 (F := F) Variants.none c none i arg2 harg2 arg3 harg3 arg4 harg4 arg5 harg5
    (View.ld x0 rq1) (harg3.unread x1) (harg4.unread x2) (k1_pay1, k1_pay2, k1_pay3)
    (Scf.trips k1_t1_loop.lb k1_t1_loop.ub k1_t1_loop.st)

/-- The output block after the body: the weighted sums over the normalisers, stored whole. -/
def out1_3 (c : Dev nD) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (x0 : Vec F S1x1024x64 .bf16) (x1 : Vec F S1x4096x64 .bf16) (x2 : Vec F S1x4096x64 .bf16) : Vec F S1x1024x64 .f32 :=
  View.canon [⟨rq1, k1_pay10 (carry1 c i arg2 harg2 arg3 harg3 arg4 harg4 arg5 harg5 x0 x1 x2).2.1
    (carry1 c i arg2 harg2 arg3 harg3 arg4 harg4 arg5 harg5 x0 x1 x2).2.2⟩]

/-- One whole-block store covers the block. -/
theorem cover1 (p0 : Vec F S1x1024x64 .f32) (y : S1x1024x64.Idx) :
    ∃ pc ∈ ([⟨rq1, p0⟩] : List (View.Piece (Elt F) S1x1024x64 .f32)), y ∈ pc.1.set :=
  View.cover_of_tiled [⟨rq1, p0⟩] S1x1024x64.size (by rfl) y

set_option maxHeartbeats 2000000 in
/-- The body on whole staging memrefs: the three inputs at read contents, the output at anything, runs to the
    continuation with the inputs as they were and the output at the quotient of the carried sums. -/
theorem sound_kernel1 (c : Dev nD) (E : Set ℕ) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (x0 : Vec F S1x1024x64 .bf16) (x1 : Vec F S1x4096x64 .bf16) (x2 : Vec F S1x4096x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 c i arg2 harg2 arg3 harg3 arg4 harg4 arg5 harg5 x0 x1 x2)) -∗ K ⟨⟩))
      ⊢ wp frame (wpE (defs₀ (F := F)) Variants.none c none) E (cc1__flash_kernel i arg2 harg2 arg3 harg3 arg4 harg4 arg5 harg5) K := by
  simp only [cc1__flash_kernel_eq_skeleton]; unfold cc1__flash_kernel_skel
  unfold owns
  iintro ⟨⟨%f0, %hf0, H0⟩, ⟨%f1, %hf1, H1⟩, ⟨%f2, %hf2, H2⟩, ⟨%d3, %f3, -, H3⟩, Hk⟩
  have e1 : f1 = harg3.unread x1 := harg3.eq_unread hf1
  have e2 : f2 = harg4.unread x2 := harg4.eq_unread hf2
  subst hf0
  sl_exec
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  iexists _; isplitr
  swap; · iexact H3
  ipureintro
  unfold out1_3 carry1
  rw [← e1, ← e2]
  exact View.read_writes_eq_canon _ _ _ (cover1 _)

/-- The staging memrefs the pipeline hands the body at point `t`, and that they are whole. -/
abbrev sm1_0 (t : Fin cfg1.N) := win1_0.stage (cfg1.slots t 0)
abbrev sm1_1 (t : Fin cfg1.N) := win1_1.stage (cfg1.slots t 1)
abbrev sm1_2 (t : Fin cfg1.N) := win1_2.stage (cfg1.slots t 2)
abbrev sm1_3 (t : Fin cfg1.N) := win1_3.stage (cfg1.slots t 3)
abbrev hsm1_0 (t : Fin cfg1.N) := hstage1_0 ((cfg1.slots t 0).cast nbuf1_0)
abbrev hsm1_1 (t : Fin cfg1.N) := hstage1_1 ((cfg1.slots t 1).cast nbuf1_1)
abbrev hsm1_2 (t : Fin cfg1.N) := hstage1_2 ((cfg1.slots t 2).cast nbuf1_2)
abbrev hsm1_3 (t : Fin cfg1.N) := hstage1_3 ((cfg1.slots t 3).cast nbuf1_3)

/-- What point `t` leaves in the output window's buffer, from the point's three input blocks. -/
def outAt1 (c : Dev nD) (t : Fin cfg1.N) : Vec F S1x1024x64 .f32 :=
  out1_3 c (grid1.coords t) (sm1_0 t) (hsm1_0 t) (sm1_1 t) (hsm1_1 t) (sm1_2 t) (hsm1_2 t) (sm1_3 t) (hsm1_3 t)
    (iblk1 V c 0 t) (iblk1 V c 1 t) (iblk1 V c 2 t)

/-- The proof data of pipeline 1 on core `c`: the arrays as the region finds them; after the body each input's
    buffer at its block and the output's at the quotient of the sums carried over the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  @main from the launch to the return: seven stretches of host operations (three zero-paddings of the weight
  matrices, their concatenation, the reshape of x), the projection region, three reshapes, the attention region.
  The unscoped buffers' contents are followed boundary by boundary: a host stretch applies its operations, a region
  leaves each of its arrays at what its write-backs fold to and every other buffer as entered. The run's post says
  that at the end every unscoped buffer holds the last boundary's contents; the result array and the four
  argument arrays are read off it.
-/
import proofs.«414132_j2267742732849_3_alg».proof.Proof.K.Region0
import proofs.«414132_j2267742732849_3_alg».proof.Proof.K.Region1
import proofs.«414132_j2267742732849_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The projection region's entry contents, read at the TensorCore's references. -/
abbrev E0 : (c : Dev nD) → (b : Ref sig .tc) → Buf (Elt F) ((c : Thread nD τ).loc b) := fun c b => V7 m c b
/-- At the projection region's exit: its arrays at what the pipeline leaves, every other buffer as entered. -/
def W8 (c : Dev nD) : Valuation τ sig (Elt F) :=
  Pipeline.withArrays spec0 c (V7 m c) fun w => (dat0 (E0 m) c).arrAt w cfg0.N
theorem W8_arr (c : Dev nD) (w : Fin cfg0.W) :
    W8 m c (Proc.devRef .tc (Pipeline.arrRef spec0 w)) = (dat0 (E0 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb
abbrev X0 : (c : Dev nD) → (b : Ref sig .tc) → Buf (Elt F) ((c : Thread nD τ).loc b) := fun c b => W8 m c b
theorem hF0 (c : Dev nD) (w : Fin cfg0.W) : (dat0 (E0 m) c).arrAt w cfg0.N = X0 m c (Pipeline.arrRef spec0 w) :=
  (W8_arr m c w).symm
theorem hrest0 (c : Dev nD) : ∀ b, b ∉ Finset.univ.image (Pipeline.arrRef spec0) → X0 m c b = E0 m c b :=
  fun b hb => W8_of_ne m c b fun w e => hb (Finset.mem_image.mpr ⟨w, Finset.mem_univ _, e⟩)

/-- After the three reshapes: the attention region's entry contents. -/
abbrev W9 : Dev nD → Valuation τ sig (Elt F) := fun c => StableHlo.after hostOps1 (W8 m c)
abbrev E1 : (c : Dev nD) → (b : Ref sig .tc) → Buf (Elt F) ((c : Thread nD τ).loc b) := fun c b => W9 m c b
/-- At the attention region's exit. -/
def W10 (c : Dev nD) : Valuation τ sig (Elt F) :=
  Pipeline.withArrays spec1 c (W9 m c) fun w => (dat1 (E1 m) c).arrAt w cfg1.N
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev X1 : (c : Dev nD) → (b : Ref sig .tc) → Buf (Elt F) ((c : Thread nD τ).loc b) := fun c b => W10 m c b
theorem hF1 (c : Dev nD) (w : Fin cfg1.W) : (dat1 (E1 m) c).arrAt w cfg1.N = X1 m c (Pipeline.arrRef spec1 w) :=
  (W10_arr m c w).symm
theorem hrest1 (c : Dev nD) : ∀ b, b ∉ Finset.univ.image (Pipeline.arrRef spec1) → X1 m c b = E1 m c b :=
  fun b hb => W10_of_ne m c b fun w e => hb (Finset.mem_image.mpr ⟨w, Finset.mem_univ _, e⟩)

/-- A buffer that is no array of either region and that no host stretch writes ends as launched. -/
theorem W10_kept (c : Dev nD) (r : Ref sig .tc) (h10 : ∀ w, Pipeline.arrRef spec1 w ≠ r) (h9 : r ∉ hostOps1_W)
    (h8 : ∀ w, Pipeline.arrRef spec0 w ≠ r) (h7 : r ∉ hostOps0_6_W) (h6 : r ∉ hostOps0_5_W) (h5 : r ∉ hostOps0_4_W)
    (h4 : r ∉ hostOps0_3_W) (h3 : r ∉ hostOps0_2_W) (h2 : r ∉ hostOps0_1_W) (h1 : r ∉ hostOps0_W) :
    W10 m c (Proc.devRef .tc r) = m ((c : Thread nD τ).loc r) :=
  (W10_of_ne m c r h10).trans <| (StableHlo.after_of_writes_sub hostOps1 _ hostOps1_writes h9).trans <|
    (W8_of_ne m c r h8).trans <| (V7_of m c r h7).trans <| (V6_of m c r h6).trans <| (V5_of m c r h5).trans <|
    (V4_of m c r h4).trans <| (V3_of m c r h3).trans <| (V2_of m c r h2).trans <| (V1_of m c r h1).trans rfl

theorem W10_main_arg0 (c : Dev nD) : W10 m c (Proc.devRef .tc main_arg0) = m ((c : Thread nD τ).loc main_arg0) :=
  W10_kept m c main_arg0 (by decide) (by decide) (by decide) (by decide) (by decide) (by decide) (by decide) (by decide) (by decide) (by decide)
theorem W10_main_arg1 (c : Dev nD) : W10 m c (Proc.devRef .tc main_arg1) = m ((c : Thread nD τ).loc main_arg1) :=
  W10_kept m c main_arg1 (by decide) (by decide) (by decide) (by decide) (by decide) (by decide) (by decide) (by decide) (by decide) (by decide)
theorem W10_main_arg2 (c : Dev nD) : W10 m c (Proc.devRef .tc main_arg2) = m ((c : Thread nD τ).loc main_arg2) :=
  W10_kept m c main_arg2 (by decide) (by decide) (by decide) (by decide) (by decide) (by decide) (by decide) (by decide) (by decide) (by decide)
theorem W10_main_arg3 (c : Dev nD) : W10 m c (Proc.devRef .tc main_arg3) = m ((c : Thread nD τ).loc main_arg3) :=
  W10_kept m c main_arg3 (by decide) (by decide) (by decide) (by decide) (by decide) (by decide) (by decide) (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev RE : Fin 3 → Dev nD → sProp 𝕄 := fun _ => R
/-- The three reshapes between the regions as a segment from the projection region's exit contents. -/
def seg8' : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W8 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- The projection region over the thread state: entered with every unscoped buffer at the seventh boundary's
    contents, left at `W8`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered at `W9`, left at `W10`, which the launch reads at the end. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev msegs (c : Dev nD) : List (Seg (pcfgs (F := F)) adm' (pdats m) () defs₀ 𝒱₀ L lv) :=
  [.host (seg0 m 𝒱₀ L lv RE), .host (seg1 m 𝒱₀ L lv RE), .host (seg2 m 𝒱₀ L lv RE), .host (seg3 m 𝒱₀ L lv RE),
   .host (seg4 m 𝒱₀ L lv RE), .host (seg5 m 𝒱₀ L lv RE), .host (seg6 m 𝒱₀ L lv RE), .region (reg0 m),
   .host (seg8' m), .region (reg1 m)]

set_option backward.isDefEq.respectTransparency.types false in
/-- THE RUN, at any float instance: from any memory with zero counters every weakly fair execution of @main
    terminates, nothing faulting, and in every final state each unscoped buffer holds the last boundary's contents;
    in particular the result array is what the attention region's write-backs fold to, and the four argument arrays
    are as launched. -/
theorem run_main : θ_run defs (onTc (τ := τ) (main (F := F))) ⟨m, fun _ => 0, ρ⟩ (fun r => ∀ c : Dev nD,
      r.2.mem ((c.tc : Thread nD τ).loc main_v9) = (dat1 (E1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm' (pdats m) () cellOf_inj emb₁ defs₀ 𝒱₀ L lv m ρ main
    (msegs m)
    (fun c Q => by
      rewrite [main_chain c, Seg.run_eq_chain,
        show (msegs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [msegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      ⟨(h c _ (mem_uc main_v9 (by decide))).trans (W10_arr m c 3),
       (h c _ (mem_uc main_arg0 (by decide))).trans (W10_main_arg0 m c),
       (h c _ (mem_uc main_arg1 (by decide))).trans (W10_main_arg1 m c),
       (h c _ (mem_uc main_arg2 (by decide))).trans (W10_main_arg2 m c),
       (h c _ (mem_uc main_arg3 (by decide))).trans (W10_main_arg3 m c)⟩)

end Cert.Kernel.Hand

end
-- ==== Proof.KI.Region0.lean ====
/-
  Region 0 of @main (the fused projection x2d · [Wq|0|Wk|0|Wv|0]) as a pipeline body, at any float instance.
  At a grid point the body reads the point's 2048 rows of x2d and the whole 1024×384 weight matrix, forms their
  product once, and stores three 64-column slices of it (columns 0.., 128.., 256..) into the three output blocks.
  Stated here: each window's block read off the region-entry contents, what each output block holds after the body
  (one whole-block store each), the body's triple, the pipeline's proof data and the body obligation at every point.
-/
import proofs.«414132_j2267742732849_3_alg».proof.Proof.Gen.KernelIdeal.Launch
import proofs.«414132_j2267742732849_3_alg».proof.Proof.Gen.KernelIdeal.Skeleton
import proofs.«414132_j2267742732849_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of x2d is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole x2d rows block, the whole weight matrix, a whole output block: the rectangles the body loads and stores through. -/
abbrev rx0 : Rect S2048x1024 := Rect.unit (s := S2048x1024) ![0, 0] S2048x1024.size inb_S2048x1024_S2048x1024_0_0
abbrev rw0 : Rect S1024x384 := Rect.unit (s := S1024x384) ![0, 0] S1024x384.size inb_S1024x384_S1024x384_0_0
abbrev ro0 : Rect S2048x64 := Rect.unit (s := S2048x64) ![0, 0] S2048x64.size inb_S2048x64_S2048x64_0_0

/-- The q block after the body: the product's columns 0..63, stored whole. -/
def out0_2 (x0 : Vec F S2048x1024 .f32) (x1 : Vec F S1024x384 .f32) : Vec F S2048x64 .bf16 :=
  View.canon [⟨ro0, k0_pay2 (View.ld x0 rx0) (View.ld x1 rw0)⟩]
/-- The k block after the body: the product's columns 128..191. -/
def out0_3 (x0 : Vec F S2048x1024 .f32) (x1 : Vec F S1024x384 .f32) : Vec F S2048x64 .bf16 :=
  View.canon [⟨ro0, k0_pay3 (View.ld x0 rx0) (View.ld x1 rw0)⟩]
/-- The v block after the body: the product's columns 256..319. -/
def out0_4 (x0 : Vec F S2048x1024 .f32) (x1 : Vec F S1024x384 .f32) : Vec F S2048x64 .bf16 :=
  View.canon [⟨ro0, k0_pay4 (View.ld x0 rx0) (View.ld x1 rw0)⟩]

/-- One whole-block store covers the block. -/
theorem cover0 (p0 : Vec F S2048x64 .bf16) (y : S2048x64.Idx) :
    ∃ pc ∈ ([⟨ro0, p0⟩] : List (View.Piece (Elt F) S2048x64 .bf16)), y ∈ pc.1.set :=
  View.cover_of_tiled [⟨ro0, p0⟩] S2048x64.size (by rfl) y

set_option maxHeartbeats 1000000 in
/-- The body on whole staging memrefs: the two inputs at read contents, the three outputs at anything, runs to the
    continuation with the inputs as they were and each output at its slice of the product. -/
theorem sound_kernel0 (c : Dev nD) (E : Set ℕ) (i : grid0.Coords)
    (arg1 : Memref sig .tc .vmem S2048x1024 .f32) (harg1 : arg1.IsWhole) (arg2 : Memref sig .tc .vmem S1024x384 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x64 .bf16) (harg5 : arg5.IsWhole)
    (x0 : Vec F S2048x1024 .f32) (x1 : Vec F S1024x384 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel3 i arg1 harg1 arg2 harg2 arg3 harg3 arg4 harg4 arg5 harg5) K := by
  simp only [cc0__proj_kernel3_eq_skeleton]; unfold cc0__proj_kernel3_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of pipeline 0 on core `c`: the arrays as the region finds them; after the body each input's
    buffer at its block and each output's at its slice of the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of @main (attention over one batch's keys and values, 1024 query rows per grid point) as a pipeline
  body, at any float instance. At a point the body reads its block of query rows, then passes four times over the
  batch's 4096 key and value rows, 1024 at a time, carrying per query row a running maximum, a running
  normaliser and a running weighted sum; it stores the weighted sum divided by the normaliser, whole.
  The passes are one counted loop, gone through by its invariant: the carried triple before pass `k` is the
  `k`-fold iterate of one pass's yield from the initial triple (−∞, 0, 0).
-/
import proofs.«414132_j2267742732849_3_alg».proof.Proof.Gen.KernelIdeal.Launch
import proofs.«414132_j2267742732849_3_alg».proof.Proof.Gen.KernelIdeal.Skeleton
import proofs.«414132_j2267742732849_3_alg».proof.Proof.Gen.KernelIdeal.Loops
import proofs.«414132_j2267742732849_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- A batch's key rows, fetched at the batch's first point, are in their staging buffer at each of its points. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Likewise its value rows. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole query block and the whole output block: the rectangle the body loads and stores through. -/
abbrev rq1 : Rect S1x1024x64 := Rect.unit (s := S1x1024x64) ![0, 0, 0] S1x1024x64.size inb_S1x1024x64_S1x1024x64_0_0_0

/-- The carried triple after the four passes: the loop's invariant at its last trip, from the query block `x0`
    and the key and value blocks `x1`, `x2` as the staging memrefs hold them. -/
def carry1 (c : Dev nD) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (x0 : Vec F S1x1024x64 .bf16) (x1 : Vec F S1x4096x64 .bf16) (x2 : Vec F S1x4096x64 .bf16) :
    FVec F S1024x1 .f32 × FVec F S1024x1 .f32 × FVec F S1024x64 .f32 :=
  st_k1_t1 (F := F) Variants.none c none i arg2 harg2 arg3 harg3 arg4 harg4 arg5 harg5
    (View.ld x0 rq1) (harg3.unread x1) (harg4.unread x2) (k1_pay1, k1_pay2, k1_pay3)
    (Scf.trips k1_t1_loop.lb k1_t1_loop.ub k1_t1_loop.st)

/-- The output block after the body: the weighted sums over the normalisers, stored whole. -/
def out1_3 (c : Dev nD) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (x0 : Vec F S1x1024x64 .bf16) (x1 : Vec F S1x4096x64 .bf16) (x2 : Vec F S1x4096x64 .bf16) : Vec F S1x1024x64 .f32 :=
  View.canon [⟨rq1, k1_pay10 (carry1 c i arg2 harg2 arg3 harg3 arg4 harg4 arg5 harg5 x0 x1 x2).2.1
    (carry1 c i arg2 harg2 arg3 harg3 arg4 harg4 arg5 harg5 x0 x1 x2).2.2⟩]

/-- One whole-block store covers the block. -/
theorem cover1 (p0 : Vec F S1x1024x64 .f32) (y : S1x1024x64.Idx) :
    ∃ pc ∈ ([⟨rq1, p0⟩] : List (View.Piece (Elt F) S1x1024x64 .f32)), y ∈ pc.1.set :=
  View.cover_of_tiled [⟨rq1, p0⟩] S1x1024x64.size (by rfl) y

set_option maxHeartbeats 2000000 in
/-- The body on whole staging memrefs: the three inputs at read contents, the output at anything, runs to the
    continuation with the inputs as they were and the output at the quotient of the carried sums. -/
theorem sound_kernel1 (c : Dev nD) (E : Set ℕ) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (x0 : Vec F S1x1024x64 .bf16) (x1 : Vec F S1x4096x64 .bf16) (x2 : Vec F S1x4096x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 c i arg2 harg2 arg3 harg3 arg4 harg4 arg5 harg5 x0 x1 x2)) -∗ K ⟨⟩))
      ⊢ wp frame (wpE (defs₀ (F := F)) Variants.none c none) E (cc1__flash_kernel i arg2 harg2 arg3 harg3 arg4 harg4 arg5 harg5) K := by
  simp only [cc1__flash_kernel_eq_skeleton]; unfold cc1__flash_kernel_skel
  unfold owns
  iintro ⟨⟨%f0, %hf0, H0⟩, ⟨%f1, %hf1, H1⟩, ⟨%f2, %hf2, H2⟩, ⟨%d3, %f3, -, H3⟩, Hk⟩
  have e1 : f1 = harg3.unread x1 := harg3.eq_unread hf1
  have e2 : f2 = harg4.unread x2 := harg4.eq_unread hf2
  subst hf0
  sl_exec
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  iexists _; isplitr
  swap; · iexact H3
  ipureintro
  unfold out1_3 carry1
  rw [← e1, ← e2]
  exact View.read_writes_eq_canon _ _ _ (cover1 _)

/-- The staging memrefs the pipeline hands the body at point `t`, and that they are whole. -/
abbrev sm1_0 (t : Fin cfg1.N) := win1_0.stage (cfg1.slots t 0)
abbrev sm1_1 (t : Fin cfg1.N) := win1_1.stage (cfg1.slots t 1)
abbrev sm1_2 (t : Fin cfg1.N) := win1_2.stage (cfg1.slots t 2)
abbrev sm1_3 (t : Fin cfg1.N) := win1_3.stage (cfg1.slots t 3)
abbrev hsm1_0 (t : Fin cfg1.N) := hstage1_0 ((cfg1.slots t 0).cast nbuf1_0)
abbrev hsm1_1 (t : Fin cfg1.N) := hstage1_1 ((cfg1.slots t 1).cast nbuf1_1)
abbrev hsm1_2 (t : Fin cfg1.N) := hstage1_2 ((cfg1.slots t 2).cast nbuf1_2)
abbrev hsm1_3 (t : Fin cfg1.N) := hstage1_3 ((cfg1.slots t 3).cast nbuf1_3)

/-- What point `t` leaves in the output window's buffer, from the point's three input blocks. -/
def outAt1 (c : Dev nD) (t : Fin cfg1.N) : Vec F S1x1024x64 .f32 :=
  out1_3 c (grid1.coords t) (sm1_0 t) (hsm1_0 t) (sm1_1 t) (hsm1_1 t) (sm1_2 t) (hsm1_2 t) (sm1_3 t) (hsm1_3 t)
    (iblk1 V c 0 t) (iblk1 V c 1 t) (iblk1 V c 2 t)

/-- The proof data of pipeline 1 on core `c`: the arrays as the region finds them; after the body each input's
    buffer at its block and the output's at the quotient of the sums carried over the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  @main from the launch to the return: seven stretches of host operations (three zero-paddings of the weight
  matrices, their concatenation, the reshape of x), the projection region, three reshapes, the attention region.
  The unscoped buffers' contents are followed boundary by boundary: a host stretch applies its operations, a region
  leaves each of its arrays at what its write-backs fold to and every other buffer as entered. The run's post says
  that at the end every unscoped buffer holds the last boundary's contents; the result array and the four
  argument arrays are read off it.
-/
import proofs.«414132_j2267742732849_3_alg».proof.Proof.KI.Region0
import proofs.«414132_j2267742732849_3_alg».proof.Proof.KI.Region1
import proofs.«414132_j2267742732849_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The projection region's entry contents, read at the TensorCore's references. -/
abbrev E0 : (c : Dev nD) → (b : Ref sig .tc) → Buf (Elt F) ((c : Thread nD τ).loc b) := fun c b => V7 m c b
/-- At the projection region's exit: its arrays at what the pipeline leaves, every other buffer as entered. -/
def W8 (c : Dev nD) : Valuation τ sig (Elt F) :=
  Pipeline.withArrays spec0 c (V7 m c) fun w => (dat0 (E0 m) c).arrAt w cfg0.N
theorem W8_arr (c : Dev nD) (w : Fin cfg0.W) :
    W8 m c (Proc.devRef .tc (Pipeline.arrRef spec0 w)) = (dat0 (E0 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb
abbrev X0 : (c : Dev nD) → (b : Ref sig .tc) → Buf (Elt F) ((c : Thread nD τ).loc b) := fun c b => W8 m c b
theorem hF0 (c : Dev nD) (w : Fin cfg0.W) : (dat0 (E0 m) c).arrAt w cfg0.N = X0 m c (Pipeline.arrRef spec0 w) :=
  (W8_arr m c w).symm
theorem hrest0 (c : Dev nD) : ∀ b, b ∉ Finset.univ.image (Pipeline.arrRef spec0) → X0 m c b = E0 m c b :=
  fun b hb => W8_of_ne m c b fun w e => hb (Finset.mem_image.mpr ⟨w, Finset.mem_univ _, e⟩)

/-- After the three reshapes: the attention region's entry contents. -/
abbrev W9 : Dev nD → Valuation τ sig (Elt F) := fun c => StableHlo.after hostOps1 (W8 m c)
abbrev E1 : (c : Dev nD) → (b : Ref sig .tc) → Buf (Elt F) ((c : Thread nD τ).loc b) := fun c b => W9 m c b
/-- At the attention region's exit. -/
def W10 (c : Dev nD) : Valuation τ sig (Elt F) :=
  Pipeline.withArrays spec1 c (W9 m c) fun w => (dat1 (E1 m) c).arrAt w cfg1.N
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev X1 : (c : Dev nD) → (b : Ref sig .tc) → Buf (Elt F) ((c : Thread nD τ).loc b) := fun c b => W10 m c b
theorem hF1 (c : Dev nD) (w : Fin cfg1.W) : (dat1 (E1 m) c).arrAt w cfg1.N = X1 m c (Pipeline.arrRef spec1 w) :=
  (W10_arr m c w).symm
theorem hrest1 (c : Dev nD) : ∀ b, b ∉ Finset.univ.image (Pipeline.arrRef spec1) → X1 m c b = E1 m c b :=
  fun b hb => W10_of_ne m c b fun w e => hb (Finset.mem_image.mpr ⟨w, Finset.mem_univ _, e⟩)

/-- A buffer that is no array of either region and that no host stretch writes ends as launched. -/
theorem W10_kept (c : Dev nD) (r : Ref sig .tc) (h10 : ∀ w, Pipeline.arrRef spec1 w ≠ r) (h9 : r ∉ hostOps1_W)
    (h8 : ∀ w, Pipeline.arrRef spec0 w ≠ r) (h7 : r ∉ hostOps0_6_W) (h6 : r ∉ hostOps0_5_W) (h5 : r ∉ hostOps0_4_W)
    (h4 : r ∉ hostOps0_3_W) (h3 : r ∉ hostOps0_2_W) (h2 : r ∉ hostOps0_1_W) (h1 : r ∉ hostOps0_W) :
    W10 m c (Proc.devRef .tc r) = m ((c : Thread nD τ).loc r) :=
  (W10_of_ne m c r h10).trans <| (StableHlo.after_of_writes_sub hostOps1 _ hostOps1_writes h9).trans <|
    (W8_of_ne m c r h8).trans <| (V7_of m c r h7).trans <| (V6_of m c r h6).trans <| (V5_of m c r h5).trans <|
    (V4_of m c r h4).trans <| (V3_of m c r h3).trans <| (V2_of m c r h2).trans <| (V1_of m c r h1).trans rfl

theorem W10_main_arg0 (c : Dev nD) : W10 m c (Proc.devRef .tc main_arg0) = m ((c : Thread nD τ).loc main_arg0) :=
  W10_kept m c main_arg0 (by decide) (by decide) (by decide) (by decide) (by decide) (by decide) (by decide) (by decide) (by decide) (by decide)
theorem W10_main_arg1 (c : Dev nD) : W10 m c (Proc.devRef .tc main_arg1) = m ((c : Thread nD τ).loc main_arg1) :=
  W10_kept m c main_arg1 (by decide) (by decide) (by decide) (by decide) (by decide) (by decide) (by decide) (by decide) (by decide) (by decide)
theorem W10_main_arg2 (c : Dev nD) : W10 m c (Proc.devRef .tc main_arg2) = m ((c : Thread nD τ).loc main_arg2) :=
  W10_kept m c main_arg2 (by decide) (by decide) (by decide) (by decide) (by decide) (by decide) (by decide) (by decide) (by decide) (by decide)
theorem W10_main_arg3 (c : Dev nD) : W10 m c (Proc.devRef .tc main_arg3) = m ((c : Thread nD τ).loc main_arg3) :=
  W10_kept m c main_arg3 (by decide) (by decide) (by decide) (by decide) (by decide) (by decide) (by decide) (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev RE : Fin 3 → Dev nD → sProp 𝕄 := fun _ => R
/-- The three reshapes between the regions as a segment from the projection region's exit contents. -/
def seg8' : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W8 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- The projection region over the thread state: entered with every unscoped buffer at the seventh boundary's
    contents, left at `W8`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered at `W9`, left at `W10`, which the launch reads at the end. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev msegs (c : Dev nD) : List (Seg (pcfgs (F := F)) adm' (pdats m) () defs₀ 𝒱₀ L lv) :=
  [.host (seg0 m 𝒱₀ L lv RE), .host (seg1 m 𝒱₀ L lv RE), .host (seg2 m 𝒱₀ L lv RE), .host (seg3 m 𝒱₀ L lv RE),
   .host (seg4 m 𝒱₀ L lv RE), .host (seg5 m 𝒱₀ L lv RE), .host (seg6 m 𝒱₀ L lv RE), .region (reg0 m),
   .host (seg8' m), .region (reg1 m)]

set_option backward.isDefEq.respectTransparency.types false in
/-- THE RUN, at any float instance: from any memory with zero counters every weakly fair execution of @main
    terminates, nothing faulting, and in every final state each unscoped buffer holds the last boundary's contents;
    in particular the result array is what the attention region's write-backs fold to, and the four argument arrays
    are as launched. -/
theorem run_main : θ_run defs (onTc (τ := τ) (main (F := F))) ⟨m, fun _ => 0, ρ⟩ (fun r => ∀ c : Dev nD,
      r.2.mem ((c.tc : Thread nD τ).loc main_v9) = (dat1 (E1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm' (pdats m) () cellOf_inj emb₁ defs₀ 𝒱₀ L lv m ρ main
    (msegs m)
    (fun c Q => by
      rewrite [main_chain c, Seg.run_eq_chain,
        show (msegs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [msegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      ⟨(h c _ (mem_uc main_v9 (by decide))).trans (W10_arr m c 3),
       (h c _ (mem_uc main_arg0 (by decide))).trans (W10_main_arg0 m c),
       (h c _ (mem_uc main_arg1 (by decide))).trans (W10_main_arg1 m c),
       (h c _ (mem_uc main_arg2 (by decide))).trans (W10_main_arg2 m c),
       (h c _ (mem_uc main_arg3 (by decide))).trans (W10_main_arg3 m c)⟩)

end Cert.KernelIdeal.Hand

end
-- ==== Proof.Spec.lean ====
/-
  The function both programs compute, over the extended reals, index by index.

  For inputs x : [4, 4096, 1024] and Wq, Wk, Wv : [1024, 64]:
    proj x W b s h   = Σ_e x[b,s,e] · W[e,h]                                   (a projected row entry)
    score b q k      = (Σ_h proj x Wq b q h · proj x Wk b k h) · (1/8)         (a scaled dot product)
    rowMax b q       = max(−∞, max_k score b q k)
    rowSum b q       = 0 + Σ_k exp(score b q k − rowMax b q)
    attn [b,q,h]     = Σ_k (exp(score b q k − rowMax b q) / rowSum b q) · proj x Wv b k h
  The literal 1/8 is kept as its binary word: both programs carry the same word, so it is never evaluated.
-/
import Idealize.ShloMosaic.PureOps.Ideal
import Idealize.ShloMosaic.Lib.ValueIdx

noncomputable section

namespace Cert.Attn

open Idealize.ShloMosaic Idealize.ShloMosaic.ValueIdx
open scoped BigOperators

abbrev SX : Shape := ⟨3, ![4, 4096, 1024]⟩
abbrev SW : Shape := ⟨2, ![1024, 64]⟩
abbrev SO : Shape := ⟨3, ![4, 4096, 64]⟩

/-- The scale 1/8 as the f32 word both programs carry. -/
abbrev scale : EReal := Ideal.ofBits .f32 0x3E000000#32

/-- A projected entry: row (b, s) of x against column h of W. -/
def proj (x : SX.Idx → EReal) (W : SW.Idx → EReal) (b : Fin 4) (s : Fin 4096) (h : Fin 64) : EReal :=
  ∑ e : Fin 1024, x (ix3 b s e) * W (ix2 e h)

/-- The scaled score of query row q against key row k in batch b. -/
def score (x : SX.Idx → EReal) (Wq Wk : SW.Idx → EReal) (b : Fin 4) (q k : Fin 4096) : EReal :=
  (∑ h : Fin 64, proj x Wq b q h * proj x Wk b k h) * scale

/-- The row maximum the softmax subtracts. -/
def rowMax (x : SX.Idx → EReal) (Wq Wk : SW.Idx → EReal) (b : Fin 4) (q : Fin 4096) : EReal :=
  max ⊥ ((Finset.univ : Finset (Fin 4096)).fold max ⊥ fun k => score x Wq Wk b q k)

/-- The softmax normaliser of a row. -/
def rowSum (x : SX.Idx → EReal) (Wq Wk : SW.Idx → EReal) (b : Fin 4) (q : Fin 4096) : EReal :=
  0 + ∑ k : Fin 4096, Ideal.exp (score x Wq Wk b q k - rowMax x Wq Wk b q)

/-- Softmax attention at an output entry. -/
def attnAt (x : SX.Idx → EReal) (Wq Wk Wv : SW.Idx → EReal) (b : Fin 4) (q : Fin 4096) (h : Fin 64) : EReal :=
  ∑ k : Fin 4096, Ideal.div (Ideal.exp (score x Wq Wk b q k - rowMax x Wq Wk b q)) (rowSum x Wq Wk b q) * proj x Wv b k h

/-- The whole result array. -/
def attn (x : SX.Idx → EReal) (Wq Wk Wv : SW.Idx → EReal) : SO.Idx → EReal :=
  fun i => attnAt x Wq Wk Wv (i 0) (i 1) (i 2)

end Cert.Attn

end
-- ==== Proof.Softmax.lean ====
/-
  Online softmax equals softmax, on the extended reals, for real-valued scores and values.

  One pass over a chunk of scores `s` and values `v` turns a carried triple (m, l, a) into
    m' = max m (max_c s c),  α = exp(m − m'),  (m', α·l + Σ_c exp(s c − m'), α·a + Σ_c exp(s c − m')·v c).
  Started at (−∞, 0, 0) and run over n ≥ 1 nonempty chunks whose entries are real numbers, the quotient a/l of the
  final triple is the softmax-weighted sum of all values: with M the maximum of all scores and L the sum of
  exp(score − M), it is Σ (exp(score − M)/L)·value. The first pass meets m = −∞: α = exp(−∞) = 0 against l = a = 0.
-/
import Idealize.ShloMosaic.PureOps.Ideal
import Mathlib.Data.EReal.Basic
import Mathlib.Data.EReal.Operations
import Mathlib.Data.Fintype.BigOperators
import Mathlib.Algebra.BigOperators.Fin
import Mathlib.Analysis.SpecialFunctions.Exp

noncomputable section

namespace Cert.Softmax

open Idealize.ShloMosaic
open scoped BigOperators

/-- One pass over a chunk. -/
def pass {C : Type} [Fintype C] (s v : C → EReal) (st : EReal × EReal × EReal) : EReal × EReal × EReal :=
  (max st.1 ((Finset.univ : Finset C).fold max ⊥ s),
   Ideal.exp (st.1 - max st.1 ((Finset.univ : Finset C).fold max ⊥ s)) * st.2.1
     + ∑ c : C, Ideal.exp (s c - max st.1 ((Finset.univ : Finset C).fold max ⊥ s)),
   Ideal.exp (st.1 - max st.1 ((Finset.univ : Finset C).fold max ⊥ s)) * st.2.2
     + ∑ c : C, Ideal.exp (s c - max st.1 ((Finset.univ : Finset C).fold max ⊥ s)) * v c)

/-- The carried triple before pass `k`. -/
def online {C : Type} [Fintype C] (s v : ℕ → C → EReal) : ℕ → EReal × EReal × EReal
  | 0 => (⊥, 0, 0)
  | k + 1 => pass (s k) (v k) (online s v k)

/-- The coercion of a finite sum of reals is the sum of the coercions. -/
theorem coe_sum {ι : Type} (A : Finset ι) (f : ι → ℝ) :
    ((∑ i ∈ A, f i : ℝ) : EReal) = ∑ i ∈ A, ((f i : ℝ) : EReal) := by
  induction A using Finset.cons_induction with
  | empty => simp
  | cons a A ha ih => rw [Finset.sum_cons, Finset.sum_cons, EReal.coe_add, ih]

/-- Folding `max` from `−∞` over the coercions of a nonempty finite family of reals gives the coercion of the
    family's maximum. -/
theorem fold_max_coe {ι : Type} (A : Finset ι) (hA : A.Nonempty) (f : ι → ℝ) :
    A.fold max ⊥ (fun i => ((f i : ℝ) : EReal)) = ((A.sup' hA f : ℝ) : EReal) := by
  induction hA using Finset.Nonempty.cons_induction with
  | singleton a => simp [Finset.fold_singleton]
  | cons a A h hA ih =>
    rw [Finset.fold_cons, ih, Finset.sup'_cons hA]
    exact (EReal.coe_strictMono.monotone.map_max).symm

/-- Changing the reference point of the exponentials from `M` to `M'` multiplies a weighted sum by `exp (M − M')`. -/
theorem rescale_sum {ι : Type} (A : Finset ι) (g w : ι → ℝ) (M M' : ℝ) :
    Real.exp (M - M') * ∑ i ∈ A, Real.exp (g i - M) * w i = ∑ i ∈ A, Real.exp (g i - M') * w i := by
  rw [Finset.mul_sum]
  refine Finset.sum_congr rfl fun i _ => ?_
  rw [← mul_assoc, ← Real.exp_add]
  congr 2
  ring

/-- The first pass: from (−∞, 0, 0) a chunk of reals gives its maximum and the sums of exponentials relative to it. -/
theorem pass_bot {C : Type} [Fintype C] [Nonempty C] (sr vr : C → ℝ) :
    pass (fun c => ((sr c : ℝ) : EReal)) (fun c => ((vr c : ℝ) : EReal)) (⊥, 0, 0)
      = (((Finset.univ.sup' Finset.univ_nonempty sr : ℝ) : EReal),
         ((∑ c, Real.exp (sr c - Finset.univ.sup' Finset.univ_nonempty sr) : ℝ) : EReal),
         ((∑ c, Real.exp (sr c - Finset.univ.sup' Finset.univ_nonempty sr) * vr c : ℝ) : EReal)) := by
  have hm : max (⊥ : EReal) ((Finset.univ : Finset C).fold max ⊥ fun c => ((sr c : ℝ) : EReal))
      = ((Finset.univ.sup' Finset.univ_nonempty sr : ℝ) : EReal) := by
    rw [fold_max_coe _ Finset.univ_nonempty]; exact max_eq_right bot_le
  simp only [pass, hm, EReal.bot_sub, Ideal.exp_bot, zero_mul, zero_add, ← EReal.coe_sub, Ideal.exp_coe,
    ← EReal.coe_mul, ← coe_sum]

/-- A later pass: from a real triple a chunk of reals gives again a real triple. -/
theorem pass_coe {C : Type} [Fintype C] [Nonempty C] (sr vr : C → ℝ) (M l a : ℝ) :
    pass (fun c => ((sr c : ℝ) : EReal)) (fun c => ((vr c : ℝ) : EReal)) ((M : EReal), (l : EReal), (a : EReal))
      = (((max M (Finset.univ.sup' Finset.univ_nonempty sr) : ℝ) : EReal),
         ((Real.exp (M - max M (Finset.univ.sup' Finset.univ_nonempty sr)) * l
            + ∑ c, Real.exp (sr c - max M (Finset.univ.sup' Finset.univ_nonempty sr)) : ℝ) : EReal),
         ((Real.exp (M - max M (Finset.univ.sup' Finset.univ_nonempty sr)) * a
            + ∑ c, Real.exp (sr c - max M (Finset.univ.sup' Finset.univ_nonempty sr)) * vr c : ℝ) : EReal)) := by
  have hm : max (M : EReal) ((Finset.univ : Finset C).fold max ⊥ fun c => ((sr c : ℝ) : EReal))
      = ((max M (Finset.univ.sup' Finset.univ_nonempty sr) : ℝ) : EReal) := by
    rw [fold_max_coe _ Finset.univ_nonempty]; exact (EReal.coe_strictMono.monotone.map_max).symm
  simp only [pass, hm, ← EReal.coe_sub, Ideal.exp_coe, ← EReal.coe_mul, ← coe_sum, ← EReal.coe_add]

/-- The invariant of the recurrence over real chunks: after `k + 1` passes the carried triple is real, its maximum
    `M` is the greatest score met so far, and the two sums are those of `exp (score − M)` and
    `exp (score − M) · value` over the entries met so far. -/
theorem online_inv {C : Type} [Fintype C] [Nonempty C] (n : ℕ) (sr vr : ℕ → C → ℝ) (s v : ℕ → C → EReal)
    (hs : ∀ k, k < n → ∀ c, s k c = ((sr k c : ℝ) : EReal))
    (hv : ∀ k, k < n → ∀ c, v k c = ((vr k c : ℝ) : EReal)) :
    ∀ k, k < n → ∃ M : ℝ, (∀ j, j ≤ k → ∀ c, sr j c ≤ M) ∧ (∃ j, j ≤ k ∧ ∃ c, sr j c = M) ∧
      online s v (k + 1) = ((M : EReal),
        ((∑ j ∈ Finset.range (k + 1), ∑ c, Real.exp (sr j c - M) : ℝ) : EReal),
        ((∑ j ∈ Finset.range (k + 1), ∑ c, Real.exp (sr j c - M) * vr j c : ℝ) : EReal)) := by
  intro k
  induction k with
  | zero =>
    intro h0
    have e1 : s 0 = fun c => ((sr 0 c : ℝ) : EReal) := funext (hs 0 h0)
    have e2 : v 0 = fun c => ((vr 0 c : ℝ) : EReal) := funext (hv 0 h0)
    refine ⟨Finset.univ.sup' Finset.univ_nonempty (sr 0), ?_, ?_, ?_⟩
    · intro j hj c
      obtain rfl : j = 0 := Nat.le_zero.mp hj
      exact Finset.le_sup' (sr 0) (Finset.mem_univ c)
    · obtain ⟨c, -, hc⟩ := Finset.exists_mem_eq_sup' Finset.univ_nonempty (sr 0)
      exact ⟨0, le_rfl, c, hc.symm⟩
    · show pass (s 0) (v 0) (⊥, 0, 0) = _
      rw [e1, e2, pass_bot]
      simp only [zero_add, Finset.sum_range_one]
  | succ k ih =>
    intro hk
    obtain ⟨M, hub, ⟨j0, hj0, c0, hc0⟩, heq⟩ := ih (Nat.lt_of_succ_lt hk)
    have e1 : s (k + 1) = fun c => ((sr (k + 1) c : ℝ) : EReal) := funext (hs (k + 1) hk)
    have e2 : v (k + 1) = fun c => ((vr (k + 1) c : ℝ) : EReal) := funext (hv (k + 1) hk)
    refine ⟨max M (Finset.univ.sup' Finset.univ_nonempty (sr (k + 1))), ?_, ?_, ?_⟩
    · intro j hj c
      rcases Nat.lt_or_ge j (k + 1) with h | h
      · exact (hub j (Nat.lt_succ_iff.mp h) c).trans (le_max_left _ _)
      · obtain rfl : j = k + 1 := le_antisymm hj h
        exact (Finset.le_sup' (sr (k + 1)) (Finset.mem_univ c)).trans (le_max_right _ _)
    · rcases max_cases M (Finset.univ.sup' Finset.univ_nonempty (sr (k + 1))) with ⟨h, -⟩ | ⟨h, -⟩
      · exact ⟨j0, Nat.le_succ_of_le hj0, c0, hc0.trans h.symm⟩
      · obtain ⟨c, -, hc⟩ := Finset.exists_mem_eq_sup' Finset.univ_nonempty (sr (k + 1))
        exact ⟨k + 1, le_rfl, c, hc.symm.trans h.symm⟩
    · show pass (s (k + 1)) (v (k + 1)) (online s v (k + 1)) = _
      rw [heq, e1, e2, pass_coe]
      refine Prod.ext rfl (Prod.ext ?_ ?_)
      · show ((_ : ℝ) : EReal) = ((_ : ℝ) : EReal)
        congr 1
        rw [Finset.sum_range_succ _ (k + 1), Finset.mul_sum]
        congr 1
        refine Finset.sum_congr rfl fun j _ => ?_
        rw [Finset.mul_sum]
        refine Finset.sum_congr rfl fun c _ => ?_
        rw [← Real.exp_add]
        congr 1
        ring
      · show ((_ : ℝ) : EReal) = ((_ : ℝ) : EReal)
        congr 1
        rw [Finset.sum_range_succ _ (k + 1), Finset.mul_sum]
        congr 1
        refine Finset.sum_congr rfl fun j _ => ?_
        exact rescale_sum Finset.univ (sr j) (vr j) M _

/-- A double sum over chunk number and position is the single sum over the entries. -/
theorem sum_reindex {C T : Type} [Fintype C] [Fintype T] (n : ℕ) (e : Fin n × C ≃ T) (f : T → ℝ)
    (g : ℕ → C → ℝ) (hg : ∀ (k : Fin n) (c : C), g k.val c = f (e (k, c))) :
    ∑ j ∈ Finset.range n, ∑ c, g j c = ∑ t, f t := by
  rw [← Equiv.sum_comp e f, Fintype.sum_prod_type, ← Fin.sum_univ_eq_sum_range (fun j => ∑ c, g j c) n]
  refine Finset.sum_congr rfl fun k _ => Finset.sum_congr rfl fun c _ => hg k c

/-- After n ≥ 1 passes over real chunks, the quotient is the softmax-weighted sum over all entries, the entries
    indexed by any finite type `T` in bijection with (chunk, position). -/
theorem online_div_eq_softmax {C T : Type} [Fintype C] [Nonempty C] [Fintype T] (n : ℕ) (hn : 0 < n)
    (e : Fin n × C ≃ T) (S W : T → ℝ) (s v : ℕ → C → EReal)
    (hs : ∀ (k : Fin n) (c : C), s k.val c = ((S (e (k, c)) : ℝ) : EReal))
    (hv : ∀ (k : Fin n) (c : C), v k.val c = ((W (e (k, c)) : ℝ) : EReal)) :
    Ideal.div (online s v n).2.2 (online s v n).2.1
      = ∑ t : T, Ideal.div
          (Ideal.exp (((S t : ℝ) : EReal) - max ⊥ ((Finset.univ : Finset T).fold max ⊥ fun t => ((S t : ℝ) : EReal))))
          (0 + ∑ t' : T, Ideal.exp (((S t' : ℝ) : EReal) - max ⊥ ((Finset.univ : Finset T).fold max ⊥ fun t => ((S t : ℝ) : EReal))))
        * ((W t : ℝ) : EReal) := by
  obtain ⟨m, rfl⟩ : ∃ m, n = m + 1 := Nat.exists_eq_succ_of_ne_zero hn.ne'
  -- the chunks, read as families of reals indexed by the chunk number
  obtain ⟨sr, hsr⟩ : ∃ sr : ℕ → C → ℝ, ∀ (k : Fin (m + 1)) (c : C), sr k.val c = S (e (k, c)) :=
    ⟨fun k c => if h : k < m + 1 then S (e (⟨k, h⟩, c)) else 0, fun k c => by simp only [dif_pos k.isLt]⟩
  obtain ⟨vr, hvr⟩ : ∃ vr : ℕ → C → ℝ, ∀ (k : Fin (m + 1)) (c : C), vr k.val c = W (e (k, c)) :=
    ⟨fun k c => if h : k < m + 1 then W (e (⟨k, h⟩, c)) else 0, fun k c => by simp only [dif_pos k.isLt]⟩
  have hs' : ∀ k, k < m + 1 → ∀ c, s k c = ((sr k c : ℝ) : EReal) := fun k hk c => by
    rw [show sr k c = S (e (⟨k, hk⟩, c)) from hsr ⟨k, hk⟩ c]; exact hs ⟨k, hk⟩ c
  have hv' : ∀ k, k < m + 1 → ∀ c, v k c = ((vr k c : ℝ) : EReal) := fun k hk c => by
    rw [show vr k c = W (e (⟨k, hk⟩, c)) from hvr ⟨k, hk⟩ c]; exact hv ⟨k, hk⟩ c
  obtain ⟨M, hub, ⟨j0, hj0, c0, hc0⟩, heq⟩ := online_inv (m + 1) sr vr s v hs' hv' m (Nat.lt_succ_self m)
  haveI : Nonempty T := ⟨e (⟨0, hn⟩, Classical.arbitrary C)⟩
  -- the maximum carried at the end is the maximum of all scores
  have hM : Finset.univ.sup' Finset.univ_nonempty S = M := by
    apply le_antisymm
    · obtain ⟨t, -, ht⟩ := Finset.exists_mem_eq_sup' Finset.univ_nonempty S
      rw [ht]
      obtain ⟨⟨k, c⟩, rfl⟩ := e.surjective t
      rw [← hsr k c]
      exact hub k.val (Nat.lt_succ_iff.mp k.isLt) c
    · rw [← hc0, hsr ⟨j0, Nat.lt_succ_iff.mpr hj0⟩ c0]
      exact Finset.le_sup' S (Finset.mem_univ _)
  have hfold : max (⊥ : EReal) ((Finset.univ : Finset T).fold max ⊥ fun t => ((S t : ℝ) : EReal))
      = (M : EReal) := by
    rw [fold_max_coe _ Finset.univ_nonempty, hM]; exact max_eq_right bot_le
  -- the two carried sums, re-indexed over all entries
  have hl : ∑ j ∈ Finset.range (m + 1), ∑ c, Real.exp (sr j c - M) = ∑ t, Real.exp (S t - M) :=
    sum_reindex (m + 1) e (fun t => Real.exp (S t - M)) (fun j c => Real.exp (sr j c - M))
      (fun k c => by simp only [hsr k c])
  have ha : ∑ j ∈ Finset.range (m + 1), ∑ c, Real.exp (sr j c - M) * vr j c
      = ∑ t, Real.exp (S t - M) * W t :=
    sum_reindex (m + 1) e (fun t => Real.exp (S t - M) * W t) (fun j c => Real.exp (sr j c - M) * vr j c)
      (fun k c => by simp only [hsr k c, hvr k c])
  -- the normaliser is positive
  have hLpos : 0 < ∑ t, Real.exp (S t - M) :=
    Finset.sum_pos (fun t _ => Real.exp_pos _) Finset.univ_nonempty
  rw [heq]
  simp only [hfold, hl, ha, zero_add, ← EReal.coe_sub, Ideal.exp_coe, ← coe_sum, Ideal.div_coe hLpos.ne',
    ← EReal.coe_mul]
  congr 1
  rw [Finset.sum_mul]
  refine Finset.sum_congr rfl fun t _ => ?_
  ring

end Cert.Softmax

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KI.FlashPass.lean ====
/-
  One pass of the attention body, read at an index, is one pass of the online softmax.

  With q the block of 1024 query rows and kc, vc a chunk of 1024 key and value rows, a pass takes the carried
  (running maximum, normaliser, weighted sum) to, at query row r and output column h:
    the row's scores   s c = (Σ_j q[r,j] · kc[c,j]) · (1/8),
    m' = max m (max_c s c),  α = exp(m − m'),  l' = α·l + Σ_c exp(s c − m'),  a' = α·a + Σ_c exp(s c − m') · vc[c,h].
  The initial triple is (−∞, 0, 0) and the stored result is a / l.
-/
import proofs.«414132_j2267742732849_3_alg».proof.Proof.Gen.KernelIdeal.Skeleton
import proofs.«414132_j2267742732849_3_alg».proof.Proof.Spec
import proofs.«414132_j2267742732849_3_alg».proof.Proof.Softmax
import proofs.«414132_j2267742732849_3_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pass

open Idealize.ShloMosaic Idealize.ShloMosaic.TcCoe Idealize.ShloMosaic.ValueIdx
open Cert.KernelIdeal Cert.KernelIdeal.Gen
open scoped BigOperators

/-- Query row r's scaled scores against the 1024 key rows of a chunk. -/
def scoreRow (q kc : Vec Ideal S1x1024x64 .bf16) (r : Fin 1024) : Fin 1024 → EReal :=
  fun c => (∑ j : Fin 64, q (ix3 (0 : Fin 1) r j) * kc (ix3 (0 : Fin 1) c j)) * Cert.Attn.scale

/-- Column h of a chunk of value rows. -/
def valCol (vc : Vec Ideal S1x1024x64 .bf16) (h : Fin 64) : Fin 1024 → EReal :=
  fun c => vc (ix3 (0 : Fin 1) c h)

/-! ## The two constants -/

/-- The f32 word of −∞ reads as the bottom of the extended reals. -/
theorem bot_word : Ideal.ofBits .f32 0xFF800000#32 = (⊥ : EReal) := by simp [Ideal.ofBits, Ideal.ieee]

/-! ## The scores: q · kcᵀ, scaled -/

/-- Axis 0 of the left operand's index of the score product is the output row. -/
theorem lhs_qk_0 (i : S1024x1024.Idx) (p : dot_S1024x64_S64x1024_S1024x1024_1_0_0_1_n_n.contr.Idx) :
    (dot_S1024x64_S64x1024_S1024x1024_1_0_0_1_n_n.lhsIdx i p 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- Axis 1 of the left operand's index is the contraction coordinate. -/
theorem lhs_qk_1 (i : S1024x1024.Idx) (p : dot_S1024x64_S64x1024_S1024x1024_1_0_0_1_n_n.contr.Idx) :
    (dot_S1024x64_S64x1024_S1024x1024_1_0_0_1_n_n.lhsIdx i p 1).val = (p ⟨0, by decide⟩).val :=
  dot_S1024x64_S64x1024_S1024x1024_1_0_0_1_n_n.lhsIdx_val_of_single rfl i p
/-- Axis 0 of the right operand's index is the contraction coordinate. -/
theorem rhs_qk_0 (i : S1024x1024.Idx) (p : dot_S1024x64_S64x1024_S1024x1024_1_0_0_1_n_n.contr.Idx) :
    (dot_S1024x64_S64x1024_S1024x1024_1_0_0_1_n_n.rhsIdx i p 0).val = (p ⟨0, by decide⟩).val :=
  dot_S1024x64_S64x1024_S1024x1024_1_0_0_1_n_n.rhsIdx_val_of_single rfl i p
/-- Axis 1 of the right operand's index is the output column. -/
theorem rhs_qk_1 (i : S1024x1024.Idx) (p : dot_S1024x64_S64x1024_S1024x1024_1_0_0_1_n_n.contr.Idx) :
    (dot_S1024x64_S64x1024_S1024x1024_1_0_0_1_n_n.rhsIdx i p 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The score product at (r, c): the sum over the 64 contraction coordinates. -/
theorem qk_at (A : FVec Ideal S1024x64 .bf16) (B : FVec Ideal S64x1024 .bf16) (r c : Fin 1024) :
    matmul dot_S1024x64_S64x1024_S1024x1024_1_0_0_1_n_n none A B (constant (F := Ideal) S1024x1024 .f32 0x00000000#32) (ix2 r c)
      = ∑ j : Fin 64, A (ix2 r j) * B (ix2 j c) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k := funext fun a => Fin.ext (by
    match a with
    | ⟨0, _⟩ => exact lhs_qk_0 _ _
    | ⟨1, _⟩ => exact (lhs_qk_1 _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c := funext fun a => Fin.ext (by
    match a with
    | ⟨0, _⟩ => exact (rhs_qk_0 _ _).trans hk
    | ⟨1, _⟩ => exact rhs_qk_1 _ _)
  rw [el, er]

/-- The scaled score of query row r against key row c. -/
theorem pay4_at (q kc : Vec Ideal S1x1024x64 .bf16) (r c : Fin 1024) :
    k1_pay4 (F := Ideal) q kc (ix2 r c) = scoreRow q kc r c := by
  unfold k1_pay4 scoreRow
  refine (congrArg (· * Cert.Attn.scale) (qk_at _ _ r c)).trans ?_
  refine congrArg (· * Cert.Attn.scale) (Finset.sum_congr rfl fun j _ => ?_)
  rw [shapeCast_1ab_ab_apply, transpose_ix2_apply, shapeCast_1ab_ab_apply]

/-! ## The running maximum -/

/-- Row r of a [1024, 1024] array with the column c put back on the reduced axis is the entry (r, c). -/
theorem lift_row (r c : Fin 1024) : reduces_S1024x1024_S1024.lift (ix1 r) c = ix2 r c :=
  funext fun a => match a with
    | ⟨0, _⟩ => Fin.ext rfl
    | ⟨1, _⟩ => Fin.ext rfl

/-- The new running maximum at row r: the carried one against the greatest score of the row. -/
theorem pay5_at (q kc : Vec Ideal S1x1024x64 .bf16) (a7 : FVec Ideal S1024x1 .f32) (r : Fin 1024) :
    k1_pay5 (F := Ideal) q a7 kc (ix2 r (0 : Fin 1))
      = max (a7 (ix2 r (0 : Fin 1))) ((Finset.univ : Finset (Fin 1024)).fold max ⊥ (scoreRow q kc r)) := by
  unfold k1_pay5
  refine congrArg (max (a7 (ix2 r (0 : Fin 1)))) ?_
  refine (Cert.Columns.shapeCast_a_a1_apply _ _ r (0 : Fin 1)).trans ?_
  refine (Ideal.multiReduction_maximumf_single _ _ _ _ _ (ix1 r)).trans ?_
  have hf : (k1_pay4 (F := Ideal) q kc ∘ reduces_S1024x1024_S1024.lift (ix1 r)) = scoreRow q kc r :=
    funext fun c => (congrArg (k1_pay4 (F := Ideal) q kc) (lift_row r c)).trans (pay4_at q kc r c)
  show (Finset.univ : Finset (Fin 1024)).fold max (Ideal.ofBits .f32 0xFF800000#32) (k1_pay4 (F := Ideal) q kc ∘ reduces_S1024x1024_S1024.lift (ix1 r)) = _
  rw [bot_word, hf]
  rfl

/-! ## The rescaling factor, the weights, the normaliser -/

/-- The rescaling factor of the carried sums at row r. -/
theorem pay6_at (q kc : Vec Ideal S1x1024x64 .bf16) (a7 : FVec Ideal S1024x1 .f32) (r : Fin 1024) :
    k1_pay6 (F := Ideal) q a7 kc (ix2 r (0 : Fin 1))
      = Ideal.exp (a7 (ix2 r (0 : Fin 1))
          - max (a7 (ix2 r (0 : Fin 1))) ((Finset.univ : Finset (Fin 1024)).fold max ⊥ (scoreRow q kc r))) := by
  unfold k1_pay6
  show Ideal.exp (a7 (ix2 r (0 : Fin 1)) - k1_pay5 (F := Ideal) q a7 kc (ix2 r (0 : Fin 1))) = _
  rw [pay5_at]

/-- The weight of key row c for query row r. -/
theorem pay7_at (q kc : Vec Ideal S1x1024x64 .bf16) (a7 : FVec Ideal S1024x1 .f32) (r c : Fin 1024) :
    k1_pay7 (F := Ideal) q a7 kc (ix2 r c)
      = Ideal.exp (scoreRow q kc r c
          - max (a7 (ix2 r (0 : Fin 1))) ((Finset.univ : Finset (Fin 1024)).fold max ⊥ (scoreRow q kc r))) := by
  unfold k1_pay7
  show Ideal.exp (k1_pay4 (F := Ideal) q kc (ix2 r c)
    - broadcastTo S1024x1024 (k1_pay5 (F := Ideal) q a7 kc) broadcasts_S1024x1_S1024x1024 (ix2 r c)) = _
  rw [Cert.Columns.broadcastTo_a1_ab_apply, pay4_at, pay5_at]

/-- The normaliser after the pass at row r. -/
theorem pay8_at (q kc : Vec Ideal S1x1024x64 .bf16) (a7 a8 : FVec Ideal S1024x1 .f32) (r : Fin 1024) :
    k1_pay8 (F := Ideal) q a7 a8 kc (ix2 r (0 : Fin 1))
      = Ideal.exp (a7 (ix2 r (0 : Fin 1))
            - max (a7 (ix2 r (0 : Fin 1))) ((Finset.univ : Finset (Fin 1024)).fold max ⊥ (scoreRow q kc r)))
          * a8 (ix2 r (0 : Fin 1))
        + ∑ c : Fin 1024, Ideal.exp (scoreRow q kc r c
            - max (a7 (ix2 r (0 : Fin 1))) ((Finset.univ : Finset (Fin 1024)).fold max ⊥ (scoreRow q kc r))) := by
  unfold k1_pay8
  refine congrArg₂ (· + ·) ?_ ?_
  · exact congrArg (· * a8 (ix2 r (0 : Fin 1))) (pay6_at q kc a7 r)
  · refine (Cert.Columns.shapeCast_a_a1_apply _ _ r (0 : Fin 1)).trans ?_
    refine (Ideal.multiReduction_add_single _ _ _ _ _ (ix1 r)).trans ?_
    show ∑ c : Fin 1024, k1_pay7 (F := Ideal) q a7 kc (reduces_S1024x1024_S1024.lift (ix1 r) c) = _
    refine Finset.sum_congr rfl fun c _ => ?_
    rw [lift_row, pay7_at]

/-! ## The weighted sum of values: weights · vc -/

/-- Axis 0 of the left operand's index of the weighted sum of values is the output row. -/
theorem lhs_pv_0 (i : S1024x64.Idx) (p : dot_S1024x1024_S1024x64_S1024x64_1_0_0_1_n_n.contr.Idx) :
    (dot_S1024x1024_S1024x64_S1024x64_1_0_0_1_n_n.lhsIdx i p 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- Axis 1 of the left operand's index is the contraction coordinate. -/
theorem lhs_pv_1 (i : S1024x64.Idx) (p : dot_S1024x1024_S1024x64_S1024x64_1_0_0_1_n_n.contr.Idx) :
    (dot_S1024x1024_S1024x64_S1024x64_1_0_0_1_n_n.lhsIdx i p 1).val = (p ⟨0, by decide⟩).val :=
  dot_S1024x1024_S1024x64_S1024x64_1_0_0_1_n_n.lhsIdx_val_of_single rfl i p
/-- Axis 0 of the right operand's index is the contraction coordinate. -/
theorem rhs_pv_0 (i : S1024x64.Idx) (p : dot_S1024x1024_S1024x64_S1024x64_1_0_0_1_n_n.contr.Idx) :
    (dot_S1024x1024_S1024x64_S1024x64_1_0_0_1_n_n.rhsIdx i p 0).val = (p ⟨0, by decide⟩).val :=
  dot_S1024x1024_S1024x64_S1024x64_1_0_0_1_n_n.rhsIdx_val_of_single rfl i p
/-- Axis 1 of the right operand's index is the output column. -/
theorem rhs_pv_1 (i : S1024x64.Idx) (p : dot_S1024x1024_S1024x64_S1024x64_1_0_0_1_n_n.contr.Idx) :
    (dot_S1024x1024_S1024x64_S1024x64_1_0_0_1_n_n.rhsIdx i p 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product of the weights with the value rows at (r, h): the sum over the 1024 key rows. -/
theorem pv_at (A : FVec Ideal S1024x1024 .bf16) (B : FVec Ideal S1024x64 .bf16) (r : Fin 1024) (h : Fin 64) :
    matmul dot_S1024x1024_S1024x64_S1024x64_1_0_0_1_n_n none A B (constant (F := Ideal) S1024x64 .f32 0x00000000#32) (ix2 r h)
      = ∑ c : Fin 1024, A (ix2 r c) * B (ix2 c h) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r h) ((contrEquiv1 dot_S1024x1024_S1024x64_S1024x64_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 r h) ((contrEquiv1 dot_S1024x1024_S1024x64_S1024x64_1_0_0_1_n_n 1024 rfl rfl).symm k) = ix2 k h := funext fun a => Fin.ext (by
    match a with
    | ⟨0, _⟩ => exact (rhs_pv_0 _ _).trans hk
    | ⟨1, _⟩ => exact rhs_pv_1 _ _)
  rw [el, er]

/-- The weighted sum of values after the pass at (r, h). -/
theorem pay9_at (q kc vc : Vec Ideal S1x1024x64 .bf16) (a7 : FVec Ideal S1024x1 .f32) (a9 : FVec Ideal S1024x64 .f32)
    (r : Fin 1024) (h : Fin 64) :
    k1_pay9 (F := Ideal) q a7 a9 kc vc (ix2 r h)
      = Ideal.exp (a7 (ix2 r (0 : Fin 1))
            - max (a7 (ix2 r (0 : Fin 1))) ((Finset.univ : Finset (Fin 1024)).fold max ⊥ (scoreRow q kc r)))
          * a9 (ix2 r h)
        + ∑ c : Fin 1024, Ideal.exp (scoreRow q kc r c
            - max (a7 (ix2 r (0 : Fin 1))) ((Finset.univ : Finset (Fin 1024)).fold max ⊥ (scoreRow q kc r)))
          * valCol vc h c := by
  unfold k1_pay9
  refine congrArg₂ (· + ·) ?_ ?_
  · refine congrArg (· * a9 (ix2 r h)) ?_
    exact (Cert.Columns.broadcastTo_a1_ab_apply _ _ r h).trans (pay6_at q kc a7 r)
  · refine (pv_at _ _ r h).trans (Finset.sum_congr rfl fun c _ => ?_)
    refine congrArg₂ (· * ·) ?_ ?_
    · exact pay7_at q kc a7 r c
    · exact shapeCast_1ab_ab_apply _ _ c h

/-! ## The three statements -/

/-- The loop's initial triple at (r, h) is (−∞, 0, 0). -/
theorem init_at (r : Fin 1024) (h : Fin 64) :
    ((k1_pay1 (F := Ideal)) (ix2 r (0 : Fin 1)), (k1_pay2 (F := Ideal)) (ix2 r (0 : Fin 1)), (k1_pay3 (F := Ideal)) (ix2 r h))
      = ((⊥ : EReal), (0 : EReal), (0 : EReal)) := by
  unfold k1_pay1 k1_pay2 k1_pay3
  show (Ideal.ofBits .f32 0xFF800000#32, Ideal.ofBits .f32 0x00000000#32, Ideal.ofBits .f32 0x00000000#32) = _
  rw [bot_word, Ideal.ofBits_zero_f32]

/-- One trip's yield at (r, h) is one pass over the row's scores and the value column. -/
theorem pass_at (q kc vc : Vec Ideal S1x1024x64 .bf16) (a7 a8 : FVec Ideal S1024x1 .f32) (a9 : FVec Ideal S1024x64 .f32)
    (r : Fin 1024) (h : Fin 64) :
    (k1_pay5 (F := Ideal) q a7 kc (ix2 r (0 : Fin 1)), k1_pay8 (F := Ideal) q a7 a8 kc (ix2 r (0 : Fin 1)),
        k1_pay9 (F := Ideal) q a7 a9 kc vc (ix2 r h))
      = Cert.Softmax.pass (scoreRow q kc r) (valCol vc h) (a7 (ix2 r (0 : Fin 1)), a8 (ix2 r (0 : Fin 1)), a9 (ix2 r h)) := by
  unfold Cert.Softmax.pass
  refine Prod.ext ?_ (Prod.ext ?_ ?_)
  · exact pay5_at q kc a7 r
  · exact pay8_at q kc a7 a8 r
  · exact pay9_at q kc vc a7 a9 r h

/-- The stored result at (0, r, h) is the weighted sum over the normaliser. -/
theorem out_at (l : FVec Ideal S1024x1 .f32) (acc : FVec Ideal S1024x64 .f32) (r : Fin 1024) (h : Fin 64) :
    k1_pay10 (F := Ideal) l acc (ix3 (0 : Fin 1) r h) = Ideal.div (acc (ix2 r h)) (l (ix2 r (0 : Fin 1))) := by
  unfold k1_pay10
  refine (shapeCast_ab_1ab_apply _ _ (0 : Fin 1) r h).trans ?_
  show Ideal.div (acc (ix2 r h)) (broadcastTo S1024x64 l broadcasts_S1024x1_S1024x64 (ix2 r h)) = _
  rw [Cert.Columns.broadcastTo_a1_ab_apply]

end Cert.KernelIdeal.Pass

end
-- ==== Proof.KI.FlashCarry.lean ====
/-
  The attention body's stored block, at an index, is the online softmax of the row's scores.

  One pass's yield is read once off the loop's trip: at pass k the body loads rows 1024k … 1024k+1023 of the
  batch's key and value blocks and yields the three payloads of the carried triple and those two chunks. By
  induction over the passes, at query row r and output column h the carried triple before pass k is the online
  softmax's triple after k chunks (Softmax.online), over the row's scores against each chunk and the chunk's
  column h of values. The stored entry (0, r, h) is the quotient of the last triple's sum and normaliser.
-/
import proofs.«414132_j2267742732849_3_alg».proof.Proof.KI.Region1
import proofs.«414132_j2267742732849_3_alg».proof.Proof.KI.FlashPass
import proofs.«414132_j2267742732849_3_alg».proof.Proof.Softmax
import Idealize.ShloMosaic.Lib.Pipeline.Value
import Idealize.ShloMosaic.Lib.ValueIdx
import Idealize.ShloMosaic.Lib.WholeRead

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.KernelIdeal.Pass
open scoped BigOperators

theorem hz3 : (![0, 0, 0] : Fin 3 → Nat) = fun _ => 0 := funext fun a => by fin_cases a <;> rfl

/-- The loop makes four passes. -/
theorem trips4 : k1_t1_loop.trips = 4 := by decide

/-- Rows 1024k … 1024k + 1023 of a block of 4096 rows: what pass k loads. -/
def chunkOf (k : Fin k1_t1_loop.trips) (x : Vec Ideal S1x4096x64 .bf16) : Vec Ideal S1x1024x64 .bf16 :=
  fun y => x ((Rect.unit (s := S1x4096x64) (k1_off1 k) S1x1024x64.size (Gen.k1_off1_inb k)).toLoadRect.idx y)

/-- A load through a whole memref held at the contents that read `x` is that chunk of `x`. -/
theorem readAt_chunk (arg : Memref sig .tc .vmem S1x4096x64 .bf16) (harg : arg.IsWhole) (x : Vec Ideal S1x4096x64 .bf16)
    (k : Fin k1_t1_loop.trips) :
    View.readAt (Elt Ideal) arg.view (Rect.unit (s := S1x4096x64) (k1_off1 k) S1x1024x64.size (Gen.k1_off1_inb k)).toLoadRect (harg.unread x)
      = chunkOf k x :=
  funext fun y => harg.readAt_unread x _ y

/-- Entry (0, c, j) of chunk k is entry (0, 1024k + c, j) of the block. -/
theorem chunk_at (k : Fin k1_t1_loop.trips) (x : Vec Ideal S1x4096x64 .bf16) (cc : Fin 1024) (j : Fin 64)
    (row : Fin 4096) (hrow : row.val = 1024 * k.val + cc.val) :
    chunkOf k x (ix3 (0 : Fin 1) cc j) = x (ix3 (0 : Fin 1) row j) := by
  unfold chunkOf
  congr 1
  funext a
  apply Fin.ext
  simp only [LoadRect.idx_apply, Rect.emb_apply, Rect.off_unit, Rect.stride_unit, Nat.one_mul]
  match a with
  | ⟨0, h0⟩ =>
    have e : k1_off1 k ⟨0, h0⟩ = 0 := congrFun (k1_off1_eq k) ⟨0, h0⟩
    show k1_off1 k ⟨0, h0⟩ + 0 = 0; omega
  | ⟨1, h1⟩ =>
    have e : k1_off1 k ⟨1, h1⟩ = 1024 * k.val := congrFun (k1_off1_eq k) ⟨1, h1⟩
    show k1_off1 k ⟨1, h1⟩ + cc.val = row.val; omega
  | ⟨2, h2⟩ =>
    have e : k1_off1 k ⟨2, h2⟩ = 0 := congrFun (k1_off1_eq k) ⟨2, h2⟩
    show k1_off1 k ⟨2, h2⟩ + j.val = j.val; omega

/-- ONE PASS, opened once: the trip's yield is the three payloads of the carried triple and the two chunks it loads. -/
theorem tripR_eq (c : Dev nD) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (v0 : Vec Ideal S1x1024x64 .bf16) (X3 : BufTy.Contents (Elt Ideal) arg3.view.ty) (X4 : BufTy.Contents (Elt Ideal) arg4.view.ty)
    (k : Fin k1_t1_loop.trips) (acc : FVec Ideal S1024x1 .f32 × FVec Ideal S1024x1 .f32 × FVec Ideal S1024x64 .f32) :
    tripR_k1_t1 (F := Ideal) Variants.none c none i arg2 harg2 arg3 harg3 arg4 harg4 arg5 harg5 v0 X3 X4 k acc
      = (k1_pay5 v0 acc.1 (View.readAt (Elt Ideal) arg3.view (Rect.unit (s := S1x4096x64) (k1_off1 k) S1x1024x64.size (Gen.k1_off1_inb k)).toLoadRect X3),
         k1_pay8 v0 acc.1 acc.2.1 (View.readAt (Elt Ideal) arg3.view (Rect.unit (s := S1x4096x64) (k1_off1 k) S1x1024x64.size (Gen.k1_off1_inb k)).toLoadRect X3),
         k1_pay9 v0 acc.1 acc.2.2 (View.readAt (Elt Ideal) arg3.view (Rect.unit (s := S1x4096x64) (k1_off1 k) S1x1024x64.size (Gen.k1_off1_inb k)).toLoadRect X3)
           (View.readAt (Elt Ideal) arg4.view (Rect.unit (s := S1x4096x64) (k1_off1 k) S1x1024x64.size (Gen.k1_off1_inb k)).toLoadRect X4)) := by
  unfold tripR_k1_t1 trip_k1_t1
  rfl

/-- Query row r's scores against the chunks, pass by pass (past the last pass: nothing). -/
def sSeq (q : Vec Ideal S1x1024x64 .bf16) (x1 : Vec Ideal S1x4096x64 .bf16) (r : Fin 1024) : ℕ → Fin 1024 → EReal :=
  fun k => if hk : k < k1_t1_loop.trips then scoreRow q (chunkOf ⟨k, hk⟩ x1) r else fun _ => 0
/-- Column h of the value chunks, pass by pass. -/
def vSeq (x2 : Vec Ideal S1x4096x64 .bf16) (h : Fin 64) : ℕ → Fin 1024 → EReal :=
  fun k => if hk : k < k1_t1_loop.trips then valCol (chunkOf ⟨k, hk⟩ x2) h else fun _ => 0

/-- THE INVARIANT, read at (r, h): the carried triple before pass k is the online softmax's after k chunks. -/
theorem carry_at (c : Dev nD) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (q : Vec Ideal S1x1024x64 .bf16) (x1 x2 : Vec Ideal S1x4096x64 .bf16) (r : Fin 1024) (h : Fin 64) (k : ℕ) (hk : k ≤ k1_t1_loop.trips) :
    (((st_k1_t1 (F := Ideal) Variants.none c none i arg2 harg2 arg3 harg3 arg4 harg4 arg5 harg5 q (harg3.unread x1) (harg4.unread x2)
          (k1_pay1, k1_pay2, k1_pay3) k).1 (ix2 r (0 : Fin 1))),
      ((st_k1_t1 (F := Ideal) Variants.none c none i arg2 harg2 arg3 harg3 arg4 harg4 arg5 harg5 q (harg3.unread x1) (harg4.unread x2)
          (k1_pay1, k1_pay2, k1_pay3) k).2.1 (ix2 r (0 : Fin 1))),
      ((st_k1_t1 (F := Ideal) Variants.none c none i arg2 harg2 arg3 harg3 arg4 harg4 arg5 harg5 q (harg3.unread x1) (harg4.unread x2)
          (k1_pay1, k1_pay2, k1_pay3) k).2.2 (ix2 r h)))
      = Cert.Softmax.online (sSeq q x1 r) (vSeq x2 h) k := by
  induction k with
  | zero => exact init_at r h
  | succ k ih =>
    have hk' : k < k1_t1_loop.trips := hk
    rw [st_k1_t1_succ (F := Ideal) Variants.none c none i arg2 harg2 arg3 harg3 arg4 harg4 arg5 harg5 q (harg3.unread x1) (harg4.unread x2)
      (k1_pay1, k1_pay2, k1_pay3) ⟨k, hk'⟩, tripR_eq, readAt_chunk, readAt_chunk]
    refine (pass_at q (chunkOf ⟨k, hk'⟩ x1) (chunkOf ⟨k, hk'⟩ x2) _ _ _ r h).trans ?_
    rw [ih (Nat.le_of_lt hk')]
    show _ = Cert.Softmax.pass (sSeq q x1 r k) (vSeq x2 h k) (Cert.Softmax.online (sSeq q x1 r) (vSeq x2 h) k)
    unfold sSeq vSeq
    rw [dif_pos hk', dif_pos hk']

/-- THE STORED BLOCK at (0, r, h): the quotient of the last triple's weighted sum and normaliser. -/
theorem out1_3_at (c : Dev nD) (i : grid1.Coords)
    (arg2 : Memref sig .tc .vmem S1x1024x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x1024x64 .f32) (harg5 : arg5.IsWhole)
    (x0 : Vec Ideal S1x1024x64 .bf16) (x1 x2 : Vec Ideal S1x4096x64 .bf16) (r : Fin 1024) (h : Fin 64) :
    out1_3 (F := Ideal) c i arg2 harg2 arg3 harg3 arg4 harg4 arg5 harg5 x0 x1 x2 (ix3 (0 : Fin 1) r h)
      = Ideal.div (Cert.Softmax.online (sSeq x0 x1 r) (vSeq x2 h) 4).2.2 (Cert.Softmax.online (sSeq x0 x1 r) (vSeq x2 h) 4).2.1 := by
  unfold out1_3
  rw [View.canon_unit_zero hz3, out_at]
  unfold carry1
  rw [View.ld_unit_zero (S := S1x1024x64) hz3]
  have hc := carry_at c i arg2 harg2 arg3 harg3 arg4 harg4 arg5 harg5 x0 x1 x2 r h
    (Scf.trips k1_t1_loop.lb k1_t1_loop.ub k1_t1_loop.st) (Nat.le_refl _)
  rw [show Scf.trips k1_t1_loop.lb k1_t1_loop.ub k1_t1_loop.st = 4 from trips4] at hc ⊢
  rw [← hc]

end Cert.KernelIdeal.Hand

end
-- ==== Proof.KI.FlashArr.lean ====
/-
  The attention region's result array, as one function of its three operand arrays.

  Grid point t = 4·b + qi handles batch b and query rows 1024·qi … 1024·qi + 1023: its query block is those rows
  of the query array, its key and value blocks all 4096 rows of batch b, and the block it writes back is those
  rows of the result. So the result array holds, at (b, s, h), the online softmax over batch b's four chunks of
  1024 key rows, of row s's scores against each chunk and the chunk's column h of values. The sixteen blocks
  tile the array: the point covering (b, s, ·) is 4·b + s / 1024.
-/
import proofs.«414132_j2267742732849_3_alg».proof.Proof.KI.FlashCarry
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Pass
open scoped BigOperators

variable (V : (c : Dev nD) → (b : Ref sig .tc) → Buf (Elt Ideal) ((c : Thread nD τ).loc b))

/-- The query, key and value operand arrays as the region finds them. -/
abbrev Qa (c : Dev nD) : S4x4096x64.Idx → EReal := V c main_v6
abbrev Ka (c : Dev nD) : S4x4096x64.Idx → EReal := V c main_v7
abbrev Va (c : Dev nD) : S4x4096x64.Idx → EReal := V c main_v8

/-- The online softmax's triple depends only on the chunks it has passed. -/
theorem online_congr {C : Type} [Fintype C] (s v s' v' : ℕ → C → EReal) (n : ℕ) (hs : ∀ k < n, s k = s' k) (hv : ∀ k < n, v k = v' k) :
    Cert.Softmax.online s v n = Cert.Softmax.online s' v' n := by
  induction n with
  | zero => rfl
  | succ n ih =>
    show Cert.Softmax.pass (s n) (v n) (Cert.Softmax.online s v n) = Cert.Softmax.pass (s' n) (v' n) (Cert.Softmax.online s' v' n)
    rw [hs n (Nat.lt_succ_self n), hv n (Nat.lt_succ_self n), ih (fun k hk => hs k (Nat.lt_succ_of_lt hk)) (fun k hk => hv k (Nat.lt_succ_of_lt hk))]

/-- The printed index maps, decided over the grid: point t is batch t / 4, query block t % 4. -/
theorem idx1_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- The query block at point t is rows 1024·(t % 4) … of batch t / 4 of the query array. -/
theorem qblk_at (c : Dev nD) (t : Fin cfg1.N) (r : Fin 1024) (j : Fin 64) (b : Fin 4) (s : Fin 4096)
    (hb : b.val = t.val / 4) (hs : s.val = 1024 * (t.val % 4) + r.val) :
    (iblk1 V c 0 t : Vec Ideal S1x1024x64 .bf16) (ix3 (0 : Fin 1) r j) = Qa V c (ix3 b s j) := by
  obtain ⟨e0, e1, e2, -⟩ := idx1_facts t
  unfold iblk1
  rw [View.read_apply]
  show V c main_v6 _ = V c main_v6 _
  congr 1
  funext a
  apply Fin.ext
  match a with
  | ⟨0, _⟩ => show win1_0.index t (0 : Fin 3) * 1 + 1 * 0 = b.val; omega
  | ⟨1, _⟩ => show win1_0.index t (1 : Fin 3) * 1024 + 1 * r.val = s.val; omega
  | ⟨2, _⟩ => show win1_0.index t (2 : Fin 3) * 64 + 1 * j.val = j.val; omega

/-- The key block at point t is all 4096 rows of batch t / 4 of the key array. -/
theorem kblk_at (c : Dev nD) (t : Fin cfg1.N) (row : Fin 4096) (j : Fin 64) (b : Fin 4) (hb : b.val = t.val / 4) :
    (iblk1 V c 1 t : Vec Ideal S1x4096x64 .bf16) (ix3 (0 : Fin 1) row j) = Ka V c (ix3 b row j) := by
  obtain ⟨-, -, -, e0, e1, e2, -⟩ := idx1_facts t
  unfold iblk1
  rw [View.read_apply]
  show V c main_v7 _ = V c main_v7 _
  congr 1
  funext a
  apply Fin.ext
  match a with
  | ⟨0, _⟩ => show win1_1.index t (0 : Fin 3) * 1 + 1 * 0 = b.val; omega
  | ⟨1, _⟩ => show win1_1.index t (1 : Fin 3) * 4096 + 1 * row.val = row.val; omega
  | ⟨2, _⟩ => show win1_1.index t (2 : Fin 3) * 64 + 1 * j.val = j.val; omega

/-- Likewise the value block. -/
theorem vblk_at (c : Dev nD) (t : Fin cfg1.N) (row : Fin 4096) (j : Fin 64) (b : Fin 4) (hb : b.val = t.val / 4) :
    (iblk1 V c 2 t : Vec Ideal S1x4096x64 .bf16) (ix3 (0 : Fin 1) row j) = Va V c (ix3 b row j) := by
  obtain ⟨-, -, -, -, -, -, e0, e1, e2, -⟩ := idx1_facts t
  unfold iblk1
  rw [View.read_apply]
  show V c main_v8 _ = V c main_v8 _
  congr 1
  funext a
  apply Fin.ext
  match a with
  | ⟨0, _⟩ => show win1_2.index t (0 : Fin 3) * 1 + 1 * 0 = b.val; omega
  | ⟨1, _⟩ => show win1_2.index t (1 : Fin 3) * 4096 + 1 * row.val = row.val; omega
  | ⟨2, _⟩ => show win1_2.index t (2 : Fin 3) * 64 + 1 * j.val = j.val; omega

/-- Key row c of chunk k (of four): row 1024·k + c. -/
def krow (k : ℕ) (cc : Fin 1024) : Fin 4096 := ⟨1024 * (k % 4) + cc.val, by have := cc.isLt; omega⟩

/-- Row (b, s)'s scaled scores against batch b's key rows, chunk by chunk. -/
def sFull (c : Dev nD) (b : Fin 4) (s : Fin 4096) : ℕ → Fin 1024 → EReal :=
  fun k cc => (∑ j : Fin 64, Qa V c (ix3 b s j) * Ka V c (ix3 b (krow k cc) j)) * Cert.Attn.scale
/-- Column h of batch b's value rows, chunk by chunk. -/
def vFull (c : Dev nD) (b : Fin 4) (h : Fin 64) : ℕ → Fin 1024 → EReal :=
  fun k cc => Va V c (ix3 b (krow k cc) h)

/-- The result at (b, s, h): the online softmax over the four chunks. -/
def G1at (c : Dev nD) (b : Fin 4) (s : Fin 4096) (h : Fin 64) : EReal :=
  Ideal.div (Cert.Softmax.online (sFull V c b s) (vFull V c b h) 4).2.2 (Cert.Softmax.online (sFull V c b s) (vFull V c b h) 4).2.1
/-- The whole result array. -/
def G1 (c : Dev nD) : S4x4096x64.Idx → EReal := fun i => G1at V c (i 0) (i 1) (i 2)

/-- At point t, row r of the query block scores against chunk k as row (b, s) of the array does. -/
theorem sSeq_eq (c : Dev nD) (t : Fin cfg1.N) (r : Fin 1024) (b : Fin 4) (s : Fin 4096)
    (hb : b.val = t.val / 4) (hs : s.val = 1024 * (t.val % 4) + r.val) (k : ℕ) (hk : k < 4) :
    sSeq (iblk1 V c 0 t) (iblk1 V c 1 t) r k = sFull V c b s k := by
  have hk' : k < k1_t1_loop.trips := by rw [trips4]; exact hk
  unfold sSeq sFull
  rw [dif_pos hk']
  funext cc
  unfold scoreRow
  congr 1
  refine Finset.sum_congr rfl fun j _ => ?_
  rw [qblk_at V c t r j b s hb hs, chunk_at ⟨k, hk'⟩ _ cc j (krow k cc) (by show 1024 * (k % 4) + cc.val = 1024 * k + cc.val; omega),
    kblk_at V c t (krow k cc) j b hb]

/-- Likewise the value column. -/
theorem vSeq_eq (c : Dev nD) (t : Fin cfg1.N) (h : Fin 64) (b : Fin 4) (hb : b.val = t.val / 4) (k : ℕ) (hk : k < 4) :
    vSeq (iblk1 V c 2 t) h k = vFull V c b h k := by
  have hk' : k < k1_t1_loop.trips := by rw [trips4]; exact hk
  unfold vSeq vFull
  rw [dif_pos hk']
  funext cc
  unfold valCol
  rw [chunk_at ⟨k, hk'⟩ _ cc h (krow k cc) (by show 1024 * (k % 4) + cc.val = 1024 * k + cc.val; omega), vblk_at V c t (krow k cc) h b hb]

/-- WHAT POINT t WRITES BACK is block t of the result function. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold outAt1
  obtain ⟨-, -, -, -, -, -, -, -, -, e0, e1, e2⟩ := idx1_facts t
  have ht : t.val < 16 := Nat.lt_of_lt_of_eq t.isLt N_1
  funext y
  have hy0 : (y 0).val < 1 := (y 0).isLt
  have hy1 : (y 1).val < 1024 := (y 1).isLt
  have hy2 : (y 2).val < 64 := (y 2).isLt
  let r : Fin 1024 := ⟨(y 1).val, hy1⟩
  let j : Fin 64 := ⟨(y 2).val, hy2⟩
  let b : Fin 4 := ⟨t.val / 4, by omega⟩
  let s : Fin 4096 := ⟨1024 * (t.val % 4) + (y 1).val, by omega⟩
  have hy : y = ix3 (0 : Fin 1) r j := by
    funext a
    apply Fin.ext
    match a with
    | ⟨0, _⟩ => show (y 0).val = 0; omega
    | ⟨1, _⟩ => rfl
    | ⟨2, _⟩ => rfl
  rw [View.read_apply]
  have hemb : ((cfg1.win 3).blk t).view.emb y = ix3 b s j := by
    funext a
    apply Fin.ext
    match a with
    | ⟨0, _⟩ => show win1_3.index t (0 : Fin 3) * 1 + 1 * (y 0).val = t.val / 4; omega
    | ⟨1, _⟩ => show win1_3.index t (1 : Fin 3) * 1024 + 1 * (y 1).val = 1024 * (t.val % 4) + (y 1).val; omega
    | ⟨2, _⟩ => show win1_3.index t (2 : Fin 3) * 64 + 1 * (y 2).val = (y 2).val; omega
  rw [hemb, hy]
  show out1_3 c (grid1.coords t) (sm1_0 t) (hsm1_0 t) (sm1_1 t) (hsm1_1 t) (sm1_2 t) (hsm1_2 t) (sm1_3 t) (hsm1_3 t)
      (iblk1 V c 0 t) (iblk1 V c 1 t) (iblk1 V c 2 t) (ix3 (0 : Fin 1) r j) = G1at V c b s j
  rw [out1_3_at]
  unfold G1at
  rw [online_congr _ _ (sFull V c b s) (vFull V c b j) 4
    (fun k hk => sSeq_eq V c t r b s rfl rfl k hk) (fun k hk => vSeq_eq V c t j b rfl k hk)]

/-- The sixteen blocks tile the result array. -/
theorem cover1_arr (c : Dev nD) (i : S4x4096x64.Idx) :
    ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 64 := (i 2).isLt
  let t : Fin cfg1.N := ⟨4 * (i 0).val + (i 1).val / 1024, by have hN : cfg1.N = 16 := N_1; omega⟩
  obtain ⟨-, -, -, -, -, -, -, -, -, e0, e1, e2⟩ := idx1_facts t
  have tv : t.val = 4 * (i 0).val + (i 1).val / 1024 := rfl
  refine ⟨t, flush1_3 t, ?_⟩
  show i ∈ ((View.whole main_v9).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- THE RESULT ARRAY after the region: the result function, everywhere. -/
theorem final1 (c : Dev nD) : (dat1 V c).arrAt 3 cfg1.N = G1 V c :=
  (dat1 V c).arrAt_eq_of_cover 3 (G1 V c) (fun t _ => flushed1_eq V c t) (cover1_arr c)

end Cert.KernelIdeal.Hand

end
-- ==== Proof.KI.ProjValue.lean ====
/-
  What the attention region finds in its three operand arrays: the projections of x by the three weight matrices.
  The padded, concatenated weight matrix holds Wq, Wk, Wv in columns 0.., 128.., 256..; the projection region's
  product with it, sliced at those columns and written back block by block, is x2d·Wq, x2d·Wk, x2d·Wv; the
  reshapes before and after only regroup the rows (b, s) ↔ 4096·b + s.
-/
import proofs.«414132_j2267742732849_3_alg».proof.Proof.KI.Run
import proofs.«414132_j2267742732849_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.KernelVsHost

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (m : (ℓ : Loc nD τ sig) → Buf (Elt Ideal) ℓ)

/-- The query operand is the reshape of the first projection output. -/
theorem e1_v6 (c : Dev nD) :
    (E1 (F := Ideal) m c main_v6 : S4x4096x64.Idx → EReal)
      = shapeCast S4x4096x64 (W8 (F := Ideal) m c main_v5_0 : S16384x64.Idx → EReal) shapeCasts_S16384x64_S4x4096x64 := by
  dsimp only [E1, W9, hostOps1]
  after_results
  rfl

/-- The key operand is the reshape of the second projection output. -/
theorem e1_v7 (c : Dev nD) :
    (E1 (F := Ideal) m c main_v7 : S4x4096x64.Idx → EReal)
      = shapeCast S4x4096x64 (W8 (F := Ideal) m c main_v5_1 : S16384x64.Idx → EReal) shapeCasts_S16384x64_S4x4096x64 := by
  dsimp only [E1, W9, hostOps1]
  after_results
  rfl

/-- The value operand is the reshape of the third projection output. -/
theorem e1_v8 (c : Dev nD) :
    (E1 (F := Ideal) m c main_v8 : S4x4096x64.Idx → EReal)
      = shapeCast S4x4096x64 (W8 (F := Ideal) m c main_v5_2 : S16384x64.Idx → EReal) shapeCasts_S16384x64_S4x4096x64 := by
  dsimp only [E1, W9, hostOps1]
  after_results
  rfl

/-- The region's first operand is the input with its rows (b, s) regrouped as 4096·b + s. -/
theorem e0_v4 (c : Dev nD) :
    (E0 (F := Ideal) m c main_v4 : S16384x1024.Idx → EReal)
      = shapeCast S16384x1024 (m ((c : Thread nD τ).loc main_arg0) : S4x4096x1024.Idx → EReal) shapeCasts_S4x4096x1024_S16384x1024 := by
  dsimp only [E0, V7, V6, V5, V4, V3, V2, V1, V0, hostOps0, hostOps0_1, hostOps0_2, hostOps0_3, hostOps0_4, hostOps0_5, hostOps0_6]
  after_results
  rfl

/-- A weight matrix padded with 64 zero columns on the right. -/
abbrev zpad (W : S1024x64.Idx → EReal) : S1024x128.Idx → EReal :=
  pad S1024x128 ![0, 0] ![0, 64] ![0, 0] W (sitofp (F := Ideal) .f32 (constantI S_ 32 0#32)) pads_S1024x64_S1024x128_000_0640 h_S_

/-- The region's second operand is the three padded weight matrices side by side. -/
theorem e0_v3 (c : Dev nD) :
    (E0 (F := Ideal) m c main_v3 : S1024x384.Idx → EReal)
      = concatenate S1024x384 1 [⟨S1024x128, zpad (m ((c : Thread nD τ).loc main_arg1))⟩, ⟨S1024x128, zpad (m ((c : Thread nD τ).loc main_arg2))⟩,
          ⟨S1024x128, zpad (m ((c : Thread nD τ).loc main_arg3))⟩] concatenates_S1024x128_S1024x128_S1024x128_S1024x384_d1 := by
  dsimp only [E0, V7, V6, V5, V4, V3, V2, V1, V0, hostOps0, hostOps0_1, hostOps0_2, hostOps0_3, hostOps0_4, hostOps0_5, hostOps0_6]
  after_results
  rfl

/-! ## The body's payloads at an index -/

/-- The zero offsets, however spelt. -/
theorem hz0 : (![0, 0] : Fin 2 → Nat) = fun _ => 0 := funext fun a => by fin_cases a <;> rfl

theorem lhs_k0_0 (i : S2048x384.Idx) (q : dot_S2048x1024_S1024x384_S2048x384_1_0_0_1_n_n.contr.Idx) :
    (dot_S2048x1024_S1024x384_S2048x384_1_0_0_1_n_n.lhsIdx i q 0).val = (i 0).val := by
  unfold DotDims.lhsIdx
  rw [dif_neg (show ¬(0 : Fin S2048x1024.rank) ∈ dot_S2048x1024_S1024x384_S2048x384_1_0_0_1_n_n.lhsBatch by decide), dif_pos (show (0 : Fin S2048x1024.rank) ∈ dot_S2048x1024_S1024x384_S2048x384_1_0_0_1_n_n.lhsNonContracting by decide)]
  rfl
theorem lhs_k0_1 (i : S2048x384.Idx) (q : dot_S2048x1024_S1024x384_S2048x384_1_0_0_1_n_n.contr.Idx) :
    (dot_S2048x1024_S1024x384_S2048x384_1_0_0_1_n_n.lhsIdx i q 1).val = (q ⟨0, by decide⟩).val :=
  dot_S2048x1024_S1024x384_S2048x384_1_0_0_1_n_n.lhsIdx_val_of_single rfl i q
theorem rhs_k0_0 (i : S2048x384.Idx) (q : dot_S2048x1024_S1024x384_S2048x384_1_0_0_1_n_n.contr.Idx) :
    (dot_S2048x1024_S1024x384_S2048x384_1_0_0_1_n_n.rhsIdx i q 0).val = (q ⟨0, by decide⟩).val :=
  dot_S2048x1024_S1024x384_S2048x384_1_0_0_1_n_n.rhsIdx_val_of_single rfl i q
theorem rhs_k0_1 (i : S2048x384.Idx) (q : dot_S2048x1024_S1024x384_S2048x384_1_0_0_1_n_n.contr.Idx) :
    (dot_S2048x1024_S1024x384_S2048x384_1_0_0_1_n_n.rhsIdx i q 1).val = (i 1).val := by
  unfold DotDims.rhsIdx
  rw [dif_neg (show ¬(1 : Fin S1024x384.rank) ∈ dot_S2048x1024_S1024x384_S2048x384_1_0_0_1_n_n.rhsBatch by decide), dif_pos (show (1 : Fin S1024x384.rank) ∈ dot_S2048x1024_S1024x384_S2048x384_1_0_0_1_n_n.rhsNonContracting by decide)]
  rfl

/-- The product of a rows block with the whole weight matrix, at (p, j): row p against column j. -/
theorem k0_pay1_at (x0 : Vec Ideal S2048x1024 .f32) (x1 : Vec Ideal S1024x384 .f32) (p : Fin 2048) (j : Fin 384) :
    k0_pay1 (F := Ideal) x0 x1 (ix2 p j) = ∑ e : Fin 1024, x0 (ix2 p e) * x1 (ix2 e j) := by
  unfold k0_pay1
  show FloatOps.matmul dot_S2048x1024_S1024x384_S2048x384_1_0_0_1_n_n none
      (truncf .bf16 (shapeCast S2048x1024 x0 shapeCasts_S2048x1024_S2048x1024) bitsLt_bf16_f32)
      (truncf .bf16 (shapeCast S1024x384 x1 shapeCasts_S1024x384_S1024x384) bitsLt_bf16_f32)
      (constant (F := Ideal) S2048x384 .f32 0x00000000#32) (ix2 p j) = _
  rw [Ideal.matmul_constant_zero_apply, ← Equiv.sum_comp (ValueIdx.contrEquiv1 dot_S2048x1024_S1024x384_S2048x384_1_0_0_1_n_n 1024 rfl rfl).symm]
  refine Finset.sum_congr rfl fun e _ => ?_
  have hk := ValueIdx.contrEquiv1_symm_val dot_S2048x1024_S1024x384_S2048x384_1_0_0_1_n_n 1024 rfl rfl e
  have el : dot_S2048x1024_S1024x384_S2048x384_1_0_0_1_n_n.lhsIdx (ix2 p j) ((ValueIdx.contrEquiv1 dot_S2048x1024_S1024x384_S2048x384_1_0_0_1_n_n 1024 rfl rfl).symm e) = ix2 p e := funext fun a => Fin.ext (by
    match a with
    | ⟨0, _⟩ => exact lhs_k0_0 _ _
    | ⟨1, _⟩ => exact (lhs_k0_1 _ _).trans hk)
  have er : dot_S2048x1024_S1024x384_S2048x384_1_0_0_1_n_n.rhsIdx (ix2 p j) ((ValueIdx.contrEquiv1 dot_S2048x1024_S1024x384_S2048x384_1_0_0_1_n_n 1024 rfl rfl).symm e) = ix2 e j := funext fun a => Fin.ext (by
    match a with
    | ⟨0, _⟩ => exact (rhs_k0_0 _ _).trans hk
    | ⟨1, _⟩ => exact rhs_k0_1 _ _)
  rw [el, er, shapeCast_self, shapeCast_self]
  rfl

/-- A 64-column slice of a [2048, 384] array at column offset off, read at (p, q): the array at (p, off + q). -/
theorem k0_slice_at (off : Nat) (hoff : off + 64 ≤ 384) (hs : S2048x384.Slices ![0, off] S2048x64) (y : S2048x384.Idx → EReal)
    (p : Fin 2048) (q : Fin 64) :
    extractStridedSlice S2048x64 ![0, off] y hs (ix2 p q) = y (ix2 p (⟨off + q.val, by omega⟩ : Fin 384)) :=
  extractStridedSlice_apply ![0, off] y hs (ix2 p q) _ fun a => by
    match a with
    | ⟨0, _⟩ => show p.val = 0 + p.val; omega
    | ⟨1, _⟩ => rfl

/-- The three stored payloads at (p, q): row p of the rows block against column q, 128 + q, 256 + q of the weights. -/
theorem k0_pay2_at (x0 : Vec Ideal S2048x1024 .f32) (x1 : Vec Ideal S1024x384 .f32) (p : Fin 2048) (q : Fin 64) :
    k0_pay2 (F := Ideal) x0 x1 (ix2 p q) = ∑ e : Fin 1024, x0 (ix2 p e) * x1 (ix2 e (⟨0 + q.val, by omega⟩ : Fin 384)) := by
  unfold k0_pay2
  show extractStridedSlice S2048x64 ![0, 0] (k0_pay1 (F := Ideal) x0 x1) slices_S2048x384_o0_0_S2048x64 (ix2 p q) = _
  rw [k0_slice_at 0 (by decide), k0_pay1_at]
theorem k0_pay3_at (x0 : Vec Ideal S2048x1024 .f32) (x1 : Vec Ideal S1024x384 .f32) (p : Fin 2048) (q : Fin 64) :
    k0_pay3 (F := Ideal) x0 x1 (ix2 p q) = ∑ e : Fin 1024, x0 (ix2 p e) * x1 (ix2 e (⟨128 + q.val, by omega⟩ : Fin 384)) := by
  unfold k0_pay3
  show extractStridedSlice S2048x64 ![0, 128] (k0_pay1 (F := Ideal) x0 x1) slices_S2048x384_o0_128_S2048x64 (ix2 p q) = _
  rw [k0_slice_at 128 (by decide), k0_pay1_at]
theorem k0_pay4_at (x0 : Vec Ideal S2048x1024 .f32) (x1 : Vec Ideal S1024x384 .f32) (p : Fin 2048) (q : Fin 64) :
    k0_pay4 (F := Ideal) x0 x1 (ix2 p q) = ∑ e : Fin 1024, x0 (ix2 p e) * x1 (ix2 e (⟨256 + q.val, by omega⟩ : Fin 384)) := by
  unfold k0_pay4
  show extractStridedSlice S2048x64 ![0, 256] (k0_pay1 (F := Ideal) x0 x1) slices_S2048x384_o0_256_S2048x64 (ix2 p q) = _
  rw [k0_slice_at 256 (by decide), k0_pay1_at]

/-! ## The windows' blocks, and what each point writes back -/

theorem t0_lt (t : Fin cfg0.N) : t.val < 8 := Nat.lt_of_lt_of_eq t.isLt N_0

/-- The index maps over the grid: the row blocks move with the point, the weight block never moves. -/
theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section Blocks
variable (V : (c : Dev nD) → (b : Ref sig .tc) → Buf (Elt Ideal) ((c : Thread nD τ).loc b))

/-- The rows block at point t is rows 2048·t … of the regrouped input. -/
theorem xblk_at (c : Dev nD) (t : Fin cfg0.N) (p : Fin 2048) (e : Fin 1024) :
    (iblk0 V c 0 t : S2048x1024.Idx → EReal) (ix2 p e)
      = (V c main_v4 : S16384x1024.Idx → EReal) (ix2 (⟨2048 * t.val + p.val, by have := t0_lt t; omega⟩ : Fin 16384) e) := by
  obtain ⟨e0, e1, -⟩ := idx0_facts t
  unfold iblk0
  rw [View.read_apply]
  show V c main_v4 _ = V c main_v4 _
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 1024 + 1 * e.val = e.val; rw [e1]; omega

/-- The weight block at every point is the whole concatenated weight matrix. -/
theorem wblk_at (c : Dev nD) (t : Fin cfg0.N) (e : Fin 1024) (j : Fin 384) :
    (iblk0 V c 1 t : S1024x384.Idx → EReal) (ix2 e j) = (V c main_v3 : S1024x384.Idx → EReal) (ix2 e j) := by
  obtain ⟨-, -, e2, e3, -⟩ := idx0_facts t
  unfold iblk0
  rw [View.read_apply]
  show V c main_v3 _ = V c main_v3 _
  congr 1
  funext a
  apply Fin.ext
  match a with
  | ⟨0, _⟩ => show win0_1.index t (0 : Fin 2) * 1024 + 1 * e.val = e.val; rw [e2]; omega
  | ⟨1, _⟩ => show win0_1.index t (1 : Fin 2) * 384 + 1 * j.val = j.val; rw [e3]; omega

end Blocks

/-- Row (i 0) of the regrouped input against column off + (i 1) of the concatenated weights. -/
abbrev projArr (X : S16384x1024.Idx → EReal) (Wc : S1024x384.Idx → EReal) (off : Nat) (hoff : off + 64 ≤ 384) : S16384x64.Idx → EReal :=
  fun i => ∑ e : Fin 1024, X (ix2 (⟨(i 0).val, idx2_lt0 i⟩ : Fin 16384) e)
    * Wc (ix2 e (⟨off + (i 1).val, by have := idx2_lt1 i; omega⟩ : Fin 384))

/-- Row p of a block holding rows 2048·t … of the regrouped input, against a weight column, is row 2048·t + p against it. -/
theorem blk0_sum (X : S16384x1024.Idx → EReal) (Wc : S1024x384.Idx → EReal)
    (x0 : Vec Ideal S2048x1024 .f32) (x1 : Vec Ideal S1024x384 .f32) (tv : Nat) (htv : tv < 8)
    (h0 : ∀ (p : Fin 2048) (e : Fin 1024), x0 (ix2 p e) = X (ix2 (⟨2048 * tv + p.val, by omega⟩ : Fin 16384) e))
    (h1 : ∀ (e : Fin 1024) (j : Fin 384), x1 (ix2 e j) = Wc (ix2 e j))
    (off : Nat) (hoff : off + 64 ≤ 384) (p : Fin 2048) (q : Fin 64) (i : S16384x64.Idx)
    (hr : (i 0).val = 2048 * tv + p.val) (hc : (i 1).val = q.val) :
    ∑ e : Fin 1024, x0 (ix2 p e) * x1 (ix2 e (⟨off + q.val, by omega⟩ : Fin 384)) = projArr X Wc off hoff i := by
  refine Finset.sum_congr rfl fun e _ => ?_
  rw [h0, h1]
  simp only [hr, hc]

/-- What point t writes back to output 0 is block t of the product with the weights' columns 0 …. -/
theorem flushed0_2_eq (c : Dev nD) (t : Fin cfg0.N) :
    (dat0 (E0 (F := Ideal) m) c).flushed 2 t
      = ((cfg0.win 2).blk t).view.read (Elt Ideal) (projArr (E0 (F := Ideal) m c main_v4) (E0 (F := Ideal) m c main_v3) 0 (by decide)) := by
  show (cfg0.win 2).cut (grid0.coords t) ((dat0 (E0 (F := Ideal) m) c).after 2 t) = _
  rw [after0_2]
  unfold out0_2
  rw [View.canon_unit_zero hz0]
  simp only [View.ld_unit_zero (S := S2048x1024) hz0, View.ld_unit_zero (S := S1024x384) hz0]
  have ei := idx0_facts t
  funext j
  have hj0 : (j 0).val < 2048 := (j 0).isLt
  have hj1 : (j 1).val < 64 := (j 1).isLt
  have hr : ((((cfg0.win 2).blk t).view.emb j) 0).val = 2048 * t.val + (j 0).val := by
    show win0_2.index t (0 : Fin 2) * 2048 + 1 * (j 0).val = _; omega
  have hc : ((((cfg0.win 2).blk t).view.emb j) 1).val = (j 1).val := by
    show win0_2.index t (1 : Fin 2) * 64 + 1 * (j 1).val = _; omega
  refine (congrArg (k0_pay2 (F := Ideal) (iblk0 (E0 (F := Ideal) m) c 0 t) (iblk0 (E0 (F := Ideal) m) c 1 t))
    (show ((cfg0.win 2).xinj (grid0.coords t) j : S2048x64.Idx) = ix2 (⟨(j 0).val, hj0⟩ : Fin 2048) (⟨(j 1).val, hj1⟩ : Fin 64) from
      funext fun a => Fin.ext (by match a with | ⟨0, _⟩ => rfl | ⟨1, _⟩ => rfl))).trans ?_
  refine (k0_pay2_at _ _ _ _).trans ?_
  rw [View.read_apply]
  exact blk0_sum _ _ _ _ t.val (t0_lt t) (xblk_at (E0 (F := Ideal) m) c t) (wblk_at (E0 (F := Ideal) m) c t) 0 (by decide) _ _ _ hr hc

/-- An index of the output array is in point t's block iff its row is among the block's 2048 rows. -/
theorem mem_blk0_2 (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v5_0).slice (win0_2.rect t)).set ↔ _
  rw [View.set_slice_whole, Rect.mem_set_unit]
  exact Iff.rfl

/-- Every row r of the output array is in the block of point r / 2048. -/
theorem cover0_2 (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  have ht : (i 0).val / 2048 < cfg0.N := by rw [show cfg0.N = 8 from N_0]; omega
  have ei := idx0_facts ⟨(i 0).val / 2048, ht⟩
  refine ⟨⟨(i 0).val / 2048, ht⟩, flush0_2 _, ?_⟩
  rw [mem_blk0_2]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [ei.2.2.2.2.1]
    show (i 0).val / 2048 * 2048 ≤ (i 0).val ∧ (i 0).val < (i 0).val / 2048 * 2048 + 2048
    omega
  | ⟨1, _⟩ =>
    show win0_2.index ⟨(i 0).val / 2048, ht⟩ (1 : Fin 2) * 64 ≤ (i 1).val
      ∧ (i 1).val < win0_2.index ⟨(i 0).val / 2048, ht⟩ (1 : Fin 2) * 64 + 64
    rw [ei.2.2.2.2.2.1]
    omega

/-- So output 0 ends holding that product. -/
theorem final0_2 (c : Dev nD) :
    (dat0 (E0 (F := Ideal) m) c).arrAt 2 cfg0.N = projArr (E0 (F := Ideal) m c main_v4) (E0 (F := Ideal) m c main_v3) 0 (by decide) :=
  (dat0 (E0 (F := Ideal) m) c).arrAt_eq_of_cover 2 _ (fun t _ => flushed0_2_eq m c t) cover0_2

/-- What point t writes back to output 1 is block t of the product with the weights' columns 128 …. -/
theorem flushed0_3_eq (c : Dev nD) (t : Fin cfg0.N) :
    (dat0 (E0 (F := Ideal) m) c).flushed 3 t
      = ((cfg0.win 3).blk t).view.read (Elt Ideal) (projArr (E0 (F := Ideal) m c main_v4) (E0 (F := Ideal) m c main_v3) 128 (by decide)) := by
  show (cfg0.win 3).cut (grid0.coords t) ((dat0 (E0 (F := Ideal) m) c).after 3 t) = _
  rw [after0_3]
  unfold out0_3
  rw [View.canon_unit_zero hz0]
  simp only [View.ld_unit_zero (S := S2048x1024) hz0, View.ld_unit_zero (S := S1024x384) hz0]
  have ei := idx0_facts t
  funext j
  have hj0 : (j 0).val < 2048 := (j 0).isLt
  have hj1 : (j 1).val < 64 := (j 1).isLt
  have hr : ((((cfg0.win 3).blk t).view.emb j) 0).val = 2048 * t.val + (j 0).val := by
    show win0_3.index t (0 : Fin 2) * 2048 + 1 * (j 0).val = _; omega
  have hc : ((((cfg0.win 3).blk t).view.emb j) 1).val = (j 1).val := by
    show win0_3.index t (1 : Fin 2) * 64 + 1 * (j 1).val = _; omega
  refine (congrArg (k0_pay3 (F := Ideal) (iblk0 (E0 (F := Ideal) m) c 0 t) (iblk0 (E0 (F := Ideal) m) c 1 t))
    (show ((cfg0.win 3).xinj (grid0.coords t) j : S2048x64.Idx) = ix2 (⟨(j 0).val, hj0⟩ : Fin 2048) (⟨(j 1).val, hj1⟩ : Fin 64) from
      funext fun a => Fin.ext (by match a with | ⟨0, _⟩ => rfl | ⟨1, _⟩ => rfl))).trans ?_
  refine (k0_pay3_at _ _ _ _).trans ?_
  rw [View.read_apply]
  exact blk0_sum _ _ _ _ t.val (t0_lt t) (xblk_at (E0 (F := Ideal) m) c t) (wblk_at (E0 (F := Ideal) m) c t) 128 (by decide) _ _ _ hr hc

/-- An index of the output array is in point t's block iff its row is among the block's 2048 rows. -/
theorem mem_blk0_3 (t : Fin cfg0.N) (i : S16384x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v5_1).slice (win0_3.rect t)).set ↔ _
  rw [View.set_slice_whole, Rect.mem_set_unit]
  exact Iff.rfl

/-- Every row r of the output array is in the block of point r / 2048. -/
theorem cover0_3 (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  have ht : (i 0).val / 2048 < cfg0.N := by rw [show cfg0.N = 8 from N_0]; omega
  have ei := idx0_facts ⟨(i 0).val / 2048, ht⟩
  refine ⟨⟨(i 0).val / 2048, ht⟩, flush0_3 _, ?_⟩
  rw [mem_blk0_3]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [ei.2.2.2.2.2.2.1]
    show (i 0).val / 2048 * 2048 ≤ (i 0).val ∧ (i 0).val < (i 0).val / 2048 * 2048 + 2048
    omega
  | ⟨1, _⟩ =>
    show win0_3.index ⟨(i 0).val / 2048, ht⟩ (1 : Fin 2) * 64 ≤ (i 1).val
      ∧ (i 1).val < win0_3.index ⟨(i 0).val / 2048, ht⟩ (1 : Fin 2) * 64 + 64
    rw [ei.2.2.2.2.2.2.2.1]
    omega

/-- So output 1 ends holding that product. -/
theorem final0_3 (c : Dev nD) :
    (dat0 (E0 (F := Ideal) m) c).arrAt 3 cfg0.N = projArr (E0 (F := Ideal) m c main_v4) (E0 (F := Ideal) m c main_v3) 128 (by decide) :=
  (dat0 (E0 (F := Ideal) m) c).arrAt_eq_of_cover 3 _ (fun t _ => flushed0_3_eq m c t) cover0_3

/-- What point t writes back to output 2 is block t of the product with the weights' columns 256 …. -/
theorem flushed0_4_eq (c : Dev nD) (t : Fin cfg0.N) :
    (dat0 (E0 (F := Ideal) m) c).flushed 4 t
      = ((cfg0.win 4).blk t).view.read (Elt Ideal) (projArr (E0 (F := Ideal) m c main_v4) (E0 (F := Ideal) m c main_v3) 256 (by decide)) := by
  show (cfg0.win 4).cut (grid0.coords t) ((dat0 (E0 (F := Ideal) m) c).after 4 t) = _
  rw [after0_4]
  unfold out0_4
  rw [View.canon_unit_zero hz0]
  simp only [View.ld_unit_zero (S := S2048x1024) hz0, View.ld_unit_zero (S := S1024x384) hz0]
  have ei := idx0_facts t
  funext j
  have hj0 : (j 0).val < 2048 := (j 0).isLt
  have hj1 : (j 1).val < 64 := (j 1).isLt
  have hr : ((((cfg0.win 4).blk t).view.emb j) 0).val = 2048 * t.val + (j 0).val := by
    show win0_4.index t (0 : Fin 2) * 2048 + 1 * (j 0).val = _; omega
  have hc : ((((cfg0.win 4).blk t).view.emb j) 1).val = (j 1).val := by
    show win0_4.index t (1 : Fin 2) * 64 + 1 * (j 1).val = _; omega
  refine (congrArg (k0_pay4 (F := Ideal) (iblk0 (E0 (F := Ideal) m) c 0 t) (iblk0 (E0 (F := Ideal) m) c 1 t))
    (show ((cfg0.win 4).xinj (grid0.coords t) j : S2048x64.Idx) = ix2 (⟨(j 0).val, hj0⟩ : Fin 2048) (⟨(j 1).val, hj1⟩ : Fin 64) from
      funext fun a => Fin.ext (by match a with | ⟨0, _⟩ => rfl | ⟨1, _⟩ => rfl))).trans ?_
  refine (k0_pay4_at _ _ _ _).trans ?_
  rw [View.read_apply]
  exact blk0_sum _ _ _ _ t.val (t0_lt t) (xblk_at (E0 (F := Ideal) m) c t) (wblk_at (E0 (F := Ideal) m) c t) 256 (by decide) _ _ _ hr hc

/-- An index of the output array is in point t's block iff its row is among the block's 2048 rows. -/
theorem mem_blk0_4 (t : Fin cfg0.N) (i : S16384x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v5_2).slice (win0_4.rect t)).set ↔ _
  rw [View.set_slice_whole, Rect.mem_set_unit]
  exact Iff.rfl

/-- Every row r of the output array is in the block of point r / 2048. -/
theorem cover0_4 (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  have ht : (i 0).val / 2048 < cfg0.N := by rw [show cfg0.N = 8 from N_0]; omega
  have ei := idx0_facts ⟨(i 0).val / 2048, ht⟩
  refine ⟨⟨(i 0).val / 2048, ht⟩, flush0_4 _, ?_⟩
  rw [mem_blk0_4]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [ei.2.2.2.2.2.2.2.2.1]
    show (i 0).val / 2048 * 2048 ≤ (i 0).val ∧ (i 0).val < (i 0).val / 2048 * 2048 + 2048
    omega
  | ⟨1, _⟩ =>
    show win0_4.index ⟨(i 0).val / 2048, ht⟩ (1 : Fin 2) * 64 ≤ (i 1).val
      ∧ (i 1).val < win0_4.index ⟨(i 0).val / 2048, ht⟩ (1 : Fin 2) * 64 + 64
    rw [ei.2.2.2.2.2.2.2.2.2]
    omega

/-- So output 2 ends holding that product. -/
theorem final0_4 (c : Dev nD) :
    (dat0 (E0 (F := Ideal) m) c).arrAt 4 cfg0.N = projArr (E0 (F := Ideal) m c main_v4) (E0 (F := Ideal) m c main_v3) 256 (by decide) :=
  (dat0 (E0 (F := Ideal) m) c).arrAt_eq_of_cover 4 _ (fun t _ => flushed0_4_eq m c t) cover0_4

/-! ## The host operations around the region, read at an index -/

/-- The regrouped input at row 4096·b + s is the input at (b, s). -/
theorem x2d_at (c : Dev nD) (b : Fin 4) (s : Fin 4096) (e : Fin 1024) (r : Fin 16384) (hr : r.val = 4096 * b.val + s.val) :
    (E0 (F := Ideal) m c main_v4 : S16384x1024.Idx → EReal) (ix2 r e)
      = (m ((c : Thread nD τ).loc main_arg0) : S4x4096x1024.Idx → EReal) (ix3 b s e) := by
  rw [e0_v4]
  refine shapeCast_apply _ _ (ix2 r e) (ix3 b s e) ?_
  rw [Shape.rowMajor_val_three, Shape.rowMajor_val_two]
  show (b.val * 4096 + s.val) * 1024 + e.val = r.val * 1024 + e.val
  omega

/-- A padded weight matrix at one of its first 64 columns is the weight matrix there. -/
theorem zpad_at (W : S1024x64.Idx → EReal) (e : Fin 1024) (h : Fin 64) :
    zpad W (ix2 e (⟨h.val, by omega⟩ : Fin 128)) = W (ix2 e h) :=
  pad_apply_of_inside ![0, 0] ![0, 64] ![0, 0] W _ pads_S1024x64_S1024x128_000_0640 h_S_ _ (ix2 e h) fun a => by
    match a with
    | ⟨0, _⟩ => show e.val = 0 + e.val * (0 + 1); omega
    | ⟨1, _⟩ => show h.val = 0 + h.val * (0 + 1); omega

/-- The concatenation of three padded weight matrices at column 128·k + h, h < 64, is the k-th matrix at column h. -/
theorem wcat_at (W1 W2 W3 : S1024x64.Idx → EReal) (k : Nat) (hk : k < 3) (Wk : S1024x64.Idx → EReal)
    (hxk : ([⟨S1024x128, zpad W1⟩, ⟨S1024x128, zpad W2⟩, ⟨S1024x128, zpad W3⟩] : List ((s : Shape) × (s.Idx → EReal)))[k]'(by simpa using hk) = ⟨S1024x128, zpad Wk⟩)
    (e : Fin 1024) (h : Fin 64) (col : Fin 384) (hcol : col.val = 128 * k + h.val) :
    concatenate S1024x384 1 [⟨S1024x128, zpad W1⟩, ⟨S1024x128, zpad W2⟩, ⟨S1024x128, zpad W3⟩] concatenates_S1024x128_S1024x128_S1024x128_S1024x384_d1 (ix2 e col) = Wk (ix2 e h) := by
  refine (concatenate_apply_piece (t := S1024x384) (1 : Fin S1024x384.rank) [⟨S1024x128, zpad W1⟩, ⟨S1024x128, zpad W2⟩, ⟨S1024x128, zpad W3⟩] concatenates_S1024x128_S1024x128_S1024x128_S1024x384_d1 (ix2 e col)
    k (by simpa using hk) S1024x128 (zpad Wk) hxk rfl (128 * k) ?_ (ix2 e (⟨h.val, by omega⟩ : Fin 128)) ?_ ?_).trans (zpad_at Wk e h)
  · interval_cases k <;> rfl
  · intro b hb
    match b with
    | ⟨0, _⟩ => rfl
    | ⟨1, _⟩ => exact absurd rfl hb
  · show 128 * k + h.val = col.val
    omega

/-- The concatenated weight matrix the region reads, at column 128·k + h, h < 64, is the k-th weight matrix at column h. -/
theorem wcol_at (c : Dev nD) (k : Nat) (hk : k < 3) (Wk : S1024x64.Idx → EReal)
    (hxk : ([⟨S1024x128, zpad (m ((c : Thread nD τ).loc main_arg1))⟩, ⟨S1024x128, zpad (m ((c : Thread nD τ).loc main_arg2))⟩,
        ⟨S1024x128, zpad (m ((c : Thread nD τ).loc main_arg3))⟩] : List ((s : Shape) × (s.Idx → EReal)))[k]'(by simpa using hk)
      = ⟨S1024x128, zpad Wk⟩)
    (off : Nat) (hoff : off + 64 ≤ 384) (hko : off = 128 * k) (e : Fin 1024) (h : Fin 64) :
    (E0 (F := Ideal) m c main_v3 : S1024x384.Idx → EReal) (ix2 e (⟨off + h.val, by omega⟩ : Fin 384)) = Wk (ix2 e h) := by
  rw [e0_v3]
  exact wcat_at _ _ _ k hk Wk hxk e h _ (by show off + h.val = 128 * k + h.val; omega)

/-- An attention operand at (b, s, h): the reshape of a projection output reads its row 4096·b + s, which is that row
    of the regrouped input, the input's row (b, s), against the weight column. -/
theorem proj_operand_at (c : Dev nD) (off : Nat) (hoff : off + 64 ≤ 384) (W : S1024x64.Idx → EReal) (A : S16384x64.Idx → EReal)
    (hA : A = projArr (E0 (F := Ideal) m c main_v4) (E0 (F := Ideal) m c main_v3) off hoff)
    (hW : ∀ (e : Fin 1024) (h : Fin 64),
      (E0 (F := Ideal) m c main_v3 : S1024x384.Idx → EReal) (ix2 e (⟨off + h.val, by omega⟩ : Fin 384)) = W (ix2 e h))
    (b : Fin 4) (s : Fin 4096) (h : Fin 64) :
    shapeCast S4x4096x64 A shapeCasts_S16384x64_S4x4096x64 (ix3 b s h)
      = Cert.Attn.proj (m ((c : Thread nD τ).loc main_arg0)) W b s h := by
  have hb := b.isLt
  have hs := s.isLt
  rw [shapeCast_apply A _ (ix3 b s h) (ix2 (⟨4096 * b.val + s.val, by omega⟩ : Fin 16384) h) (by
    rw [Shape.rowMajor_val_two, Shape.rowMajor_val_three]
    show (4096 * b.val + s.val) * 64 + h.val = (b.val * 4096 + s.val) * 64 + h.val
    omega), hA]
  unfold Cert.Attn.proj
  refine Finset.sum_congr rfl fun e _ => ?_
  exact congrArg₂ (· * ·) (x2d_at m c b s e ⟨4096 * b.val + s.val, by omega⟩ rfl) (hW e h)

/-- The query operand of the attention region is the projection of x by Wq. -/
theorem q_at (c : Dev nD) (b : Fin 4) (s : Fin 4096) (h : Fin 64) :
    (E1 (F := Ideal) m c main_v6 : S4x4096x64.Idx → EReal) (ix3 b s h)
      = Cert.Attn.proj (m ((c : Thread nD τ).loc main_arg0)) (m ((c : Thread nD τ).loc main_arg1)) b s h := by
  rw [e1_v6]
  exact proj_operand_at m c 0 (by decide) _ _ ((W8_arr m c 2).trans (final0_2 m c))
    (wcol_at m c 0 (by decide) _ rfl 0 (by decide) rfl) b s h
/-- The key operand is the projection by Wk. -/
theorem k_at (c : Dev nD) (b : Fin 4) (s : Fin 4096) (h : Fin 64) :
    (E1 (F := Ideal) m c main_v7 : S4x4096x64.Idx → EReal) (ix3 b s h)
      = Cert.Attn.proj (m ((c : Thread nD τ).loc main_arg0)) (m ((c : Thread nD τ).loc main_arg2)) b s h := by
  rw [e1_v7]
  exact proj_operand_at m c 128 (by decide) _ _ ((W8_arr m c 3).trans (final0_3 m c))
    (wcol_at m c 1 (by decide) _ rfl 128 (by decide) rfl) b s h
/-- The value operand is the projection by Wv. -/
theorem v_at (c : Dev nD) (b : Fin 4) (s : Fin 4096) (h : Fin 64) :
    (E1 (F := Ideal) m c main_v8 : S4x4096x64.Idx → EReal) (ix3 b s h)
      = Cert.Attn.proj (m ((c : Thread nD τ).loc main_arg0)) (m ((c : Thread nD τ).loc main_arg3)) b s h := by
  rw [e1_v8]
  exact proj_operand_at m c 256 (by decide) _ _ ((W8_arr m c 4).trans (final0_4 m c))
    (wcol_at m c 2 (by decide) _ rfl 256 (by decide) rfl) b s h

end Cert.KernelIdeal.Hand

end
-- ==== Proof.KI.Finite.lean ====
/-
  Under the precondition every entry of the four argument arrays is a real number.
  The precondition is the conjunction, over the four arrays, of "all entries have absolute value below +∞".
-/
import proofs.«414132_j2267742732849_3_alg».proof.Defs
import proofs.«414132_j2267742732849_3_alg».proof.Proof.Gen.KernelIdeal
import proofs.«414132_j2267742732849_3_alg».proof.Proof.Gen.Pre_finite_inputs
import proofs.«414132_j2267742732849_3_alg».proof.Proof.Spec
import Idealize.ShloMosaic.Lib.ReduceAll
import Idealize.ShloMosaic.Lib.ValueIdx

noncomputable section

namespace Cert.KernelIdeal.Finite

open Idealize.ShloMosaic Idealize.ShloMosaic.TcCoe Idealize.SL.Sem Cert.KernelIdeal

/-- The index type of the scalar shape has one element. -/
instance : Subsingleton Cert.Pre_finite_inputs.S_.Idx := ⟨fun a b => funext fun d => d.elim0⟩

/-- An extended real whose absolute value compares below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An array all of whose entries have absolute value below +∞ is the coercion of a real array. -/
theorem real_array {s : Shape} (x : s.Idx → EReal)
    (h : ∀ i, Ideal.cmp .olt (max (x i) (-(x i))) (Ideal.ofBits .f32 0x7F800000#32) = 1#1) :
    ∃ X : s.Idx → ℝ, x = fun i => ((X i : ℝ) : EReal) :=
  ⟨fun i => (x i).toReal, funext fun i => by
    obtain ⟨r, hr⟩ := real_of_abs_lt_top (x i) (h i)
    show x i = (((x i).toReal : ℝ) : EReal)
    rw [hr, EReal.toReal_coe]⟩

/-- Under the precondition each argument array is the coercion of an array of real numbers. -/
theorem finite_args (m : (ℓ : Loc nD τ sig) → Buf (Elt Ideal) ℓ) (hpre : Cert.Pre_KernelIdeal m) (c : Dev nD) :
    (∃ X : Cert.Attn.SX.Idx → ℝ, (m ((c.tc : Thread nD τ).loc main_arg0) : Cert.Attn.SX.Idx → EReal) = fun i => ((X i : ℝ) : EReal))
    ∧ (∃ A : Cert.Attn.SW.Idx → ℝ, (m ((c.tc : Thread nD τ).loc main_arg1) : Cert.Attn.SW.Idx → EReal) = fun i => ((A i : ℝ) : EReal))
    ∧ (∃ A : Cert.Attn.SW.Idx → ℝ, (m ((c.tc : Thread nD τ).loc main_arg2) : Cert.Attn.SW.Idx → EReal) = fun i => ((A i : ℝ) : EReal))
    ∧ (∃ A : Cert.Attn.SW.Idx → ℝ, (m ((c.tc : Thread nD τ).loc main_arg3) : Cert.Attn.SW.Idx → EReal) = fun i => ((A i : ℝ) : EReal)) := by
  -- the precondition at the one index of its scalar result
  have h := congrFun (hpre c) ValueIdx.ix0
  dsimp only [Cert.Pre_finite_inputs.fn, Cert.Pre_finite_inputs.fn_part1] at h
  -- the conjunction of the four "all entries finite" tests
  obtain ⟨h012, h3⟩ := IntOp.andi_eq_one.1 h
  obtain ⟨h01, h2⟩ := IntOp.andi_eq_one.1 h012
  obtain ⟨h0, h1⟩ := IntOp.andi_eq_one.1 h01
  refine ⟨real_array _ fun i => ?_, real_array _ fun i => ?_, real_array _ fun i => ?_, real_array _ fun i => ?_⟩
  · exact Host.reduce_andi_all _ _ _ _ _ h0 i
  · exact Host.reduce_andi_all _ _ _ _ _ h1 i
  · exact Host.reduce_andi_all _ _ _ _ _ h2 i
  · exact Host.reduce_andi_all _ _ _ _ _ h3 i

end Cert.KernelIdeal.Finite

end
-- ==== Proof.Consts.lean ====
/-
  The one float literal the value proof evaluates: the scale 1/8 (the word 0x3E000000) is the real number 1/8.
-/
import proofs.«414132_j2267742732849_3_alg».proof.Proof.Spec

noncomputable section

namespace Cert.Attn

open Idealize.ShloMosaic

/-- The scale word denotes the real 1/8. -/
theorem scale_real : scale = (((1 / 8 : ℝ)) : EReal) := by
  simp [scale, Ideal.ofBits, Ideal.ieee, -EReal.coe_mul]; norm_num

end Cert.Attn

end
-- ==== Proof.KI.Value.lean ====
/-
  Under the precondition the kernel's result array is the attention function of the four argument arrays.

  The attention region finds the three projections of x in its operand arrays; its result at (b, s, h) is the online
  softmax over batch b's four chunks of key rows. The argument arrays' entries are real numbers, so every
  projection entry and every score is real, and the online softmax's quotient is the softmax-weighted sum of the
  value column: the chunks (k, c) ↔ key row 1024·k + c exhaust the 4096 key rows.
-/
import proofs.«414132_j2267742732849_3_alg».proof.Proof.KI.FlashArr
import proofs.«414132_j2267742732849_3_alg».proof.Proof.KI.ProjValue
import proofs.«414132_j2267742732849_3_alg».proof.Proof.KI.Finite
import proofs.«414132_j2267742732849_3_alg».proof.Proof.Consts
import proofs.«414132_j2267742732849_3_alg».proof.Proof.Softmax

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-- The chunks (k, c) are the key rows 1024·k + c. -/
def chunkEquiv : Fin 4 × Fin 1024 ≃ Fin 4096 where
  toFun p := krow p.1.val p.2
  invFun t := (⟨t.val / 1024, by have := t.isLt; omega⟩, ⟨t.val % 1024, Nat.mod_lt _ (by decide)⟩)
  left_inv p := by
    have h1 := p.1.isLt; have h2 := p.2.isLt
    apply Prod.ext <;> apply Fin.ext
    · show (1024 * (p.1.val % 4) + p.2.val) / 1024 = p.1.val; omega
    · show (1024 * (p.1.val % 4) + p.2.val) % 1024 = p.2.val; omega
  right_inv t := by
    have := t.isLt
    apply Fin.ext
    show 1024 * ((t.val / 1024) % 4) + t.val % 1024 = t.val; omega

/-- A projection of real arrays is real: the coercion of the real sum of products. -/
theorem proj_coe (X : Cert.Attn.SX.Idx → ℝ) (A : Cert.Attn.SW.Idx → ℝ) (b : Fin 4) (s : Fin 4096) (h : Fin 64) :
    Cert.Attn.proj (fun i => ((X i : ℝ) : EReal)) (fun i => ((A i : ℝ) : EReal)) b s h
      = ((∑ e : Fin 1024, X (ix3 b s e) * A (ix2 e h) : ℝ) : EReal) := by
  unfold Cert.Attn.proj
  rw [Cert.Softmax.coe_sum]
  exact Finset.sum_congr rfl fun e _ => (EReal.coe_mul _ _).symm

variable (m : (ℓ : Loc nD τ sig) → Buf (Elt Ideal) ℓ)

/-- THE KERNEL'S RESULT: under the precondition, what the attention region's write-backs fold to is the attention
    function of the four argument arrays. -/
theorem kernel_value (hpre : Cert.Pre_KernelIdeal m) (c : Dev nD) :
    (dat1 (F := Ideal) (E1 m) c).arrAt 3 cfg1.N
      = Cert.Attn.attn (m ((c.tc : Thread nD τ).loc main_arg0)) (m ((c.tc : Thread nD τ).loc main_arg1))
          (m ((c.tc : Thread nD τ).loc main_arg2)) (m ((c.tc : Thread nD τ).loc main_arg3)) := by
  obtain ⟨⟨X, hX⟩, ⟨A1, hA1⟩, ⟨A2, hA2⟩, ⟨A3, hA3⟩⟩ := Cert.KernelIdeal.Finite.finite_args m hpre c
  rw [final1]
  funext i
  have hi : i = ix3 (i 0) (i 1) (i 2) := eq_ix3 i
  obtain ⟨b, s, h, rfl⟩ : ∃ (b : Fin 4) (s : Fin 4096) (h : Fin 64), i = ix3 b s h := ⟨i 0, i 1, i 2, hi⟩
  show G1at (E1 m) c b s h = Cert.Attn.attnAt _ _ _ _ b s h
  -- the real projections
  let QR : Fin 4096 → Fin 64 → ℝ := fun s' j => ∑ e : Fin 1024, X (ix3 b s' e) * A1 (ix2 e j)
  let KR : Fin 4096 → Fin 64 → ℝ := fun s' j => ∑ e : Fin 1024, X (ix3 b s' e) * A2 (ix2 e j)
  let VR : Fin 4096 → Fin 64 → ℝ := fun s' j => ∑ e : Fin 1024, X (ix3 b s' e) * A3 (ix2 e j)
  have hq : ∀ s' j, Qa (E1 m) c (ix3 b s' j) = ((QR s' j : ℝ) : EReal) := fun s' j => by
    show (E1 (F := Ideal) m c main_v6 : S4x4096x64.Idx → EReal) (ix3 b s' j) = _
    rw [q_at, hX, hA1, proj_coe]
  have hk : ∀ s' j, Ka (E1 m) c (ix3 b s' j) = ((KR s' j : ℝ) : EReal) := fun s' j => by
    show (E1 (F := Ideal) m c main_v7 : S4x4096x64.Idx → EReal) (ix3 b s' j) = _
    rw [k_at, hX, hA2, proj_coe]
  have hv : ∀ s' j, Va (E1 m) c (ix3 b s' j) = ((VR s' j : ℝ) : EReal) := fun s' j => by
    show (E1 (F := Ideal) m c main_v8 : S4x4096x64.Idx → EReal) (ix3 b s' j) = _
    rw [v_at, hX, hA3, proj_coe]
  -- the real scores of row (b, s) and the real value column h
  let S : Fin 4096 → ℝ := fun t => (∑ j : Fin 64, QR s j * KR t j) * (1 / 8)
  let W : Fin 4096 → ℝ := fun t => VR t h
  have hscore : ∀ t : Fin 4096, Cert.Attn.score (m ((c.tc : Thread nD τ).loc main_arg0)) (m ((c.tc : Thread nD τ).loc main_arg1))
      (m ((c.tc : Thread nD τ).loc main_arg2)) b s t = ((S t : ℝ) : EReal) := fun t => by
    unfold Cert.Attn.score
    rw [hX, hA1, hA2, Cert.Attn.scale_real]
    simp only [proj_coe]
    show _ = (((∑ j : Fin 64, QR s j * KR t j) * (1 / 8) : ℝ) : EReal)
    rw [EReal.coe_mul, Cert.Softmax.coe_sum]
    congr 1
  have hval : ∀ t : Fin 4096, Cert.Attn.proj (m ((c.tc : Thread nD τ).loc main_arg0)) (m ((c.tc : Thread nD τ).loc main_arg3)) b t h
      = ((W t : ℝ) : EReal) := fun t => by
    rw [hX, hA3, proj_coe]
  -- the kernel side over the chunks
  have hs : ∀ (k : Fin 4) (cc : Fin 1024), sFull (E1 m) c b s k.val cc = ((S (chunkEquiv (k, cc)) : ℝ) : EReal) := fun k cc => by
    unfold sFull
    rw [Cert.Attn.scale_real]
    simp only [hq, hk]
    show _ = (((∑ j : Fin 64, QR s j * KR (krow k.val cc) j) * (1 / 8) : ℝ) : EReal)
    rw [EReal.coe_mul, Cert.Softmax.coe_sum]
    congr 1
  have hw : ∀ (k : Fin 4) (cc : Fin 1024), vFull (E1 m) c b h k.val cc = ((W (chunkEquiv (k, cc)) : ℝ) : EReal) := fun k cc => by
    unfold vFull
    exact hv _ _
  unfold G1at
  rw [Cert.Softmax.online_div_eq_softmax 4 (by decide) chunkEquiv S W _ _ hs hw]
  unfold Cert.Attn.attnAt Cert.Attn.rowSum Cert.Attn.rowMax
  simp only [hscore, hval]

end Cert.KernelIdeal.Hand

end
-- ==== Proof.RefValue.lean ====
/-
  The reference's result, read one operation at a time, is the attention function of the arguments:
  three projections, the scaled score matrix, its row maximum taken from −∞, the exponentials of the differences,
  their row sums from 0, the quotient, and the product with the projected values.
-/
import proofs.«414132_j2267742732849_3_alg».proof.Proof.Gen.ReferenceIdeal.Run
import proofs.«414132_j2267742732849_3_alg».proof.Proof.Gen.ReferenceIdeal.Read
import proofs.«414132_j2267742732849_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx
open scoped BigOperators

/-- The input array's type, as the stages take it. -/
abbrev TX : Type := (⟨S4x4096x1024, .f32⟩ : BufTy).Contents (Elt Ideal)
/-- A weight array's type, as the stages take it. -/
abbrev TW : Type := (⟨S1024x64, .f32⟩ : BufTy).Contents (Elt Ideal)

/-- The word of −∞ denotes the bottom element of the extended reals. -/
theorem neg_inf : Ideal.ofBits .f32 0xFF800000#32 = (⊥ : EReal) := by
  simp [Ideal.ofBits, Ideal.ieee]

/-! ## The three projections: entry (b, s, h) is row (b, s) of the input against column h of the weight -/

theorem v0_at (x0 : TX) (x1 : TW) (b : Fin 4) (s : Fin 4096) (h : Fin 64) :
    Read.val_main_v0 (F := Ideal) x0 x1 (ix3 b s h) = Cert.Attn.proj x0 x1 b s h := by
  rw [Read.val_main_v0_apply]
  unfold Cert.Attn.proj
  refine Finset.sum_congr rfl fun e _ => ?_
  rw [show Read.lidx_main_v0 (ix3 b s h) e = ix3 b s e from
        funext fun a => Fin.ext (by match a with | ⟨0, _⟩ => rfl | ⟨1, _⟩ => rfl | ⟨2, _⟩ => rfl),
      show Read.ridx_main_v0 (ix3 b s h) e = ix2 e h from
        funext fun a => Fin.ext (by match a with | ⟨0, _⟩ => rfl | ⟨1, _⟩ => rfl)]

theorem v1_at (x0 : TX) (x2 : TW) (b : Fin 4) (s : Fin 4096) (h : Fin 64) :
    Read.val_main_v1 (F := Ideal) x0 x2 (ix3 b s h) = Cert.Attn.proj x0 x2 b s h := by
  rw [Read.val_main_v1_apply]
  unfold Cert.Attn.proj
  refine Finset.sum_congr rfl fun e _ => ?_
  rw [show Read.lidx_main_v1 (ix3 b s h) e = ix3 b s e from
        funext fun a => Fin.ext (by match a with | ⟨0, _⟩ => rfl | ⟨1, _⟩ => rfl | ⟨2, _⟩ => rfl),
      show Read.ridx_main_v1 (ix3 b s h) e = ix2 e h from
        funext fun a => Fin.ext (by match a with | ⟨0, _⟩ => rfl | ⟨1, _⟩ => rfl)]

theorem v2_at (x0 : TX) (x3 : TW) (b : Fin 4) (s : Fin 4096) (h : Fin 64) :
    Read.val_main_v2 (F := Ideal) x0 x3 (ix3 b s h) = Cert.Attn.proj x0 x3 b s h := by
  rw [Read.val_main_v2_apply]
  unfold Cert.Attn.proj
  refine Finset.sum_congr rfl fun e _ => ?_
  rw [show Read.lidx_main_v2 (ix3 b s h) e = ix3 b s e from
        funext fun a => Fin.ext (by match a with | ⟨0, _⟩ => rfl | ⟨1, _⟩ => rfl | ⟨2, _⟩ => rfl),
      show Read.ridx_main_v2 (ix3 b s h) e = ix2 e h from
        funext fun a => Fin.ext (by match a with | ⟨0, _⟩ => rfl | ⟨1, _⟩ => rfl)]

/-! ## The scaled scores: entry (b, q, k) is the dot product of query row q and key row k, times the scale word -/

theorem v5_at (x0 : TX) (x1 x2 : TW) (b : Fin 4) (q k : Fin 4096) :
    Read.val_main_v5 (F := Ideal) x0 x1 x2 (ix3 b q k) = Cert.Attn.score x0 x1 x2 b q k := by
  rw [Read.val_main_v5_apply, Read.val_main_v3_apply, Read.val_main_v4_apply, Read.val_main_cst_apply]
  unfold Cert.Attn.score
  simp only [Ideal.mulf_def, Ideal.ofBits_def]
  congr 1
  refine Finset.sum_congr rfl fun h _ => ?_
  rw [show Read.lidx_main_v3 (ix3 b q k) h = ix3 b q h from
        funext fun a => Fin.ext (by match a with | ⟨0, _⟩ => rfl | ⟨1, _⟩ => rfl | ⟨2, _⟩ => rfl),
      show Read.ridx_main_v3 (ix3 b q k) h = ix3 b k h from
        funext fun a => Fin.ext (by match a with | ⟨0, _⟩ => rfl | ⟨1, _⟩ => rfl | ⟨2, _⟩ => rfl),
      v0_at, v1_at]

/-! ## The row maximum: the fold of max from −∞ over the key axis, then the maximum with −∞ once more -/

theorem v6_at (x0 : TX) (x1 x2 : TW) (b : Fin 4) (q : Fin 4096) :
    Read.val_main_v6 (F := Ideal) x0 x1 x2 (ix2 b q)
      = (Finset.univ : Finset (Fin 4096)).fold max ⊥ fun k => Cert.Attn.score x0 x1 x2 b q k := by
  have hr : S4x4096x4096.Reduces [2] S4x4096 := by decide
  unfold Read.val_main_v6
  rw [Host.reduce_eq_fold_single (FloatOps.maximumf (F := Ideal) (φ := .f32)) _ _ _ hr, Read.val_main_cst_0_apply, Ideal.ofBits_def, neg_inf]
  have hf : (Read.val_main_v5 (F := Ideal) x0 x1 x2 ∘ hr.lift (ix2 b q))
      = fun k : Fin 4096 => Cert.Attn.score x0 x1 x2 b q k := funext fun (k : Fin 4096) => by
    show Read.val_main_v5 (F := Ideal) x0 x1 x2 (hr.lift (ix2 b q) k) = _
    rw [show hr.lift (ix2 b q) k = ix3 b q k from
          funext fun a => Fin.ext (by match a with | ⟨0, _⟩ => rfl | ⟨1, _⟩ => rfl | ⟨2, _⟩ => rfl),
        v5_at]
  rw [hf]
  rfl

theorem v8_at (x0 : TX) (x1 x2 : TW) (b : Fin 4) (q : Fin 4096) :
    Read.val_main_v8 (F := Ideal) x0 x1 x2 (ix2 b q) = Cert.Attn.rowMax x0 x1 x2 b q := by
  rw [Read.val_main_v8_apply, Read.val_main_v7_apply, Read.val_main_cst_1_apply, v6_at,
    Ideal.maximumf_def, Ideal.ofBits_def, neg_inf]
  rfl

/-! ## The exponentials of the differences, their row sums from 0, and the quotients -/

theorem v12_at (x0 : TX) (x1 x2 : TW) (b : Fin 4) (q k : Fin 4096) :
    Read.val_main_v12 (F := Ideal) x0 x1 x2 (ix3 b q k)
      = Ideal.exp (Cert.Attn.score x0 x1 x2 b q k - Cert.Attn.rowMax x0 x1 x2 b q) := by
  rw [Read.val_main_v12_apply, Read.val_main_v11_apply, Read.val_main_v10_apply, Read.val_main_v9_apply,
    show Read.idx_main_v9 (Read.idx_main_v10 (ix3 b q k)) = ix2 b q from
      funext fun a => Fin.ext (by match a with | ⟨0, _⟩ => rfl | ⟨1, _⟩ => rfl),
    v8_at, v5_at, Ideal.hostUnary_exp_def, Ideal.subf_def]

theorem v13_at (x0 : TX) (x1 x2 : TW) (b : Fin 4) (q : Fin 4096) :
    Read.val_main_v13 (F := Ideal) x0 x1 x2 (ix2 b q) = Cert.Attn.rowSum x0 x1 x2 b q := by
  rw [Read.val_main_v13_apply, Read.val_main_cst_2_apply, Ideal.ofBits_def, Ideal.ofBits_zero_f32]
  unfold Cert.Attn.rowSum
  congr 1
  refine Finset.sum_congr rfl fun k _ => ?_
  rw [show Read.idx_main_v13 (ix2 b q) k = ix3 b q k from
        funext fun a => Fin.ext (by match a with | ⟨0, _⟩ => rfl | ⟨1, _⟩ => rfl | ⟨2, _⟩ => rfl),
      v12_at]

theorem v16_at (x0 : TX) (x1 x2 : TW) (b : Fin 4) (q k : Fin 4096) :
    Read.val_main_v16 (F := Ideal) x0 x1 x2 (ix3 b q k)
      = Ideal.div (Ideal.exp (Cert.Attn.score x0 x1 x2 b q k - Cert.Attn.rowMax x0 x1 x2 b q))
          (Cert.Attn.rowSum x0 x1 x2 b q) := by
  rw [Read.val_main_v16_apply, Read.val_main_v15_apply, Read.val_main_v14_apply,
    show Read.idx_main_v14 (Read.idx_main_v15 (ix3 b q k)) = ix2 b q from
      funext fun a => Fin.ext (by match a with | ⟨0, _⟩ => rfl | ⟨1, _⟩ => rfl),
    v13_at, v12_at, Ideal.hostDivf_def]

/-! ## The result: entry (b, q, h) is the softmax row (b, q) against column h of the projected values -/

theorem v17_at (x0 : TX) (x1 x2 x3 : TW) (b : Fin 4) (q : Fin 4096) (h : Fin 64) :
    Read.val_main_v17 (F := Ideal) x0 x1 x2 x3 (ix3 b q h) = Cert.Attn.attnAt x0 x1 x2 x3 b q h := by
  rw [Read.val_main_v17_apply]
  unfold Cert.Attn.attnAt
  refine Finset.sum_congr rfl fun k _ => ?_
  rw [show Read.lidx_main_v17 (ix3 b q h) k = ix3 b q k from
        funext fun a => Fin.ext (by match a with | ⟨0, _⟩ => rfl | ⟨1, _⟩ => rfl | ⟨2, _⟩ => rfl),
      show Read.ridx_main_v17 (ix3 b q h) k = ix3 b k h from
        funext fun a => Fin.ext (by match a with | ⟨0, _⟩ => rfl | ⟨1, _⟩ => rfl | ⟨2, _⟩ => rfl),
      v16_at, v2_at]

/-- The reference's last stage, as a function of the four arguments, is the attention function. -/
theorem ref_eq_attn (x0 : (⟨S4x4096x1024, .f32⟩ : BufTy).Contents (Elt Ideal)) (x1 x2 x3 : (⟨S1024x64, .f32⟩ : BufTy).Contents (Elt Ideal)) :
    Cert.ReferenceIdeal.Read.val_main_v17 (F := Ideal) x0 x1 x2 x3 = Cert.Attn.attn x0 x1 x2 x3 := by
  funext i
  exact (congrArg (Read.val_main_v17 (F := Ideal) x0 x1 x2 x3) (ValueIdx.eq_ix3 i)).trans
    (v17_at x0 x1 x2 x3 (i 0) (i 1) (i 2))

end Cert.ReferenceIdeal.RefValue

end
-- ==== Proof.lean ====
/-
  Single-head attention, fused projection + flash attention against the plain softmax form, over the extended reals.

  The kernel's program projects x by the zero-padded, concatenated weight matrix in one matrix product per block of
  2048 rows and slices q, k, v out of it, then runs softmax attention 1024 query rows at a time by four passes over
  the batch's keys and values, carrying a running maximum, normaliser and weighted sum per row (online softmax) and
  dividing at the end. The reference forms the whole score matrix, subtracts each row's maximum, exponentiates,
  normalises by the row sum and multiplies by the projected values.

  Both compute, at (b, q, h):  Σ_k (exp(score b q k − rowMax b q) / rowSum b q) · (x·Wv)[b, k, h]   (Spec).
  The reference does so operation by operation (RefValue). For the kernel: every execution of its @main ends with
  the result array at what the attention region's write-backs fold to and the arguments as launched (Run, at any
  float instance: it gives both programs' frames); the three operand arrays of the attention region are the three
  projections (ProjValue); the region's result is the online softmax over the four chunks (FlashCarry, FlashArr);
  and for real scores the online softmax's quotient is the softmax-weighted sum (Softmax) — the entries are real
  because the precondition makes every input entry finite (Finite). Rescaling a running sum by exp(m − m') and the
  quotient of sums by a common normaliser are laws of the reals, not of the extended reals: that is where
  finiteness is used.
  No operation of the kernel is rewritten by the idealization, so `preserves` is the empty conjunction.
-/
import proofs.«414132_j2267742732849_3_alg».proof.Defs
import proofs.«414132_j2267742732849_3_alg».proof.Proof.Gen.Kernel
import proofs.«414132_j2267742732849_3_alg».proof.Proof.Gen.KernelIdeal
import proofs.«414132_j2267742732849_3_alg».proof.Proof.Gen.ReferenceIdeal
import proofs.«414132_j2267742732849_3_alg».proof.Proof.Gen.Pre_finite_inputs
import proofs.«414132_j2267742732849_3_alg».proof.Proof.Gen.ReferenceIdeal.Run
import proofs.«414132_j2267742732849_3_alg».proof.Proof.Gen.ReferenceIdeal.Read
import proofs.«414132_j2267742732849_3_alg».proof.Proof.K.Run
import proofs.«414132_j2267742732849_3_alg».proof.Proof.KI.Run
import proofs.«414132_j2267742732849_3_alg».proof.Proof.KI.Value
import proofs.«414132_j2267742732849_3_alg».proof.Proof.RefValue
import Idealize.ShloMosaic.Adequacy
import Idealize.ShloMosaic.Init

noncomputable section

namespace Cert.Proof

open Idealize.ShloMosaic Idealize.SL.Sem

/-- The word-level kernel runs, and leaves its arguments as launched: its run with the result dropped. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both idealized programs end with the attention function of the
    arguments in their result arrays. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m hpre c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.ref_eq_attn,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
